-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64 : Shape := ⟨1, ![64]⟩
abbrev S32x1024x2048 : Shape := ⟨3, ![32, 1024, 2048]⟩
abbrev S32x2048 : Shape := ⟨2, ![32, 2048]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S32x1024x2048 : S_.BroadcastsInDim S32x1024x2048 (![] : Fin 0 → Fin S32x1024x2048.rank)
  reducesTo_S32x1024x2048_S_d0_1_2 : S32x1024x2048.ReducesTo [0, 1, 2] S_
  bcast_S_S32x2048 : S_.BroadcastsInDim S32x2048 (![] : Fin 0 → Fin S32x2048.rank)
  reducesTo_S32x2048_S_d0_1 : S32x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x256x1024 .f32) (main_arg1 : IVec S64 32) (main_arg2 : FVec F S32x1024x2048 .f32) (main_arg3 : FVec F S32x2048 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S32x1024x2048 .f32 := Host.absf main_arg2
  let main_cst_0 : FVec F S_ .f32 := constant S_ .f32 0x7F800000#32
  let main_v5 : FVec F S32x1024x2048 .f32 := broadcastInDim S32x1024x2048 ![] bcast_S_S32x1024x2048 main_cst_0
  let main_v6 : IVec S32x1024x2048 1 := cmpf .olt main_v4 main_v5
  let main_c_1 : IVec S_ 1 := constantI S_ 1 1#1
  let main_v7 : IVec S_ 1 := (fun x v => Host.reduce IntOp.andi x v reducesTo_S32x1024x2048_S_d0_1_2 h_S_) main_v6 main_c_1
  let main_v8 : IVec S_ 1 := andi main_v3 main_v7
  let main_v9 : FVec F S32x2048 .f32 := Host.absf main_arg3
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 32#32
  fn_part1 (F := F) main_arg1 main_v13 main_v15 main_c_5
-- ==== Kernel.lean ====
abbrev S64x256x1024 : Shape := ⟨3, ![64, 256, 1024]⟩
abbrev S64 : Shape := ⟨1, ![64]⟩
abbrev S32x1024x2048 : Shape := ⟨3, ![32, 1024, 2048]⟩
abbrev S32x2048 : Shape := ⟨2, ![32, 2048]⟩
abbrev S_ : Shape := ⟨0, ![]⟩
abbrev S64x1 : Shape := ⟨2, ![64, 1]⟩
abbrev S32x1x2048 : Shape := ⟨3, ![32, 1, 2048]⟩
abbrev S64x256x2048 : Shape := ⟨3, ![64, 256, 2048]⟩
abbrev S1x256x1024 : Shape := ⟨3, ![1, 256, 1024]⟩
abbrev S1 : Shape := ⟨1, ![1]⟩
abbrev S1x1024x2048 : Shape := ⟨3, ![1, 1024, 2048]⟩
abbrev S1x1x2048 : Shape := ⟨3, ![1, 1, 2048]⟩
abbrev S1x256x2048 : Shape := ⟨3, ![1, 256, 2048]⟩
abbrev S256x1024 : Shape := ⟨2, ![256, 1024]⟩
abbrev S1024x2048 : Shape := ⟨2, ![1024, 2048]⟩
abbrev S256x2048 : Shape := ⟨2, ![256, 2048]⟩
abbrev S2048 : Shape := ⟨1, ![2048]⟩
abbrev S1x2048 : Shape := ⟨2, ![1, 2048]⟩

abbrev nBuf : Space → Nat
  | .hbm => 24
  | .vmem => 8
  | .smem => 2
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S32x1024x2048, .f32⟩
  | .hbm, ⟨3, _⟩ => ⟨S32x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S32x1x2048, .f32⟩
  | .hbm, ⟨23, _⟩ => ⟨S64x256x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | .local _ .smem, ⟨0, _⟩ => ⟨S64, .i32⟩
  | .local _ .smem, ⟨1, _⟩ => ⟨S64, .i32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S32x2048_S32x1x2048 : S32x2048.ShapeCasts S32x1x2048
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  gather_S64_S64x1_S64_n_0_n_n_0_1_1_wf : GatherDims.WF S64 S64x1 S64 [] [0] [] [0] [] 1 ![1]
  dot_S256x1024_S1024x2048_S256x2048_1_0_0_1_n_n_wf : DotDims.WF S256x1024 S1024x2048 S256x2048 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev spec0_0 : Pipeline.WinSpec sig grid0.rank :=
  Pipeline.WinSpec.ofSpec (Memref.whole main_arg0) S1x256x1024.size reads0_0 false false 2 stage0_0 sem0_0 nbuf0_0 hstage0_0

abbrev spec0_1 : Pipeline.WinSpec sig grid0.rank :=
  Pipeline.WinSpec.ofSpec (Memref.whole main_arg2) S1x1024x2048.size reads0_1 false false 2 stage0_1 sem0_1 nbuf0_1 hstage0_1

abbrev spec0_2 : Pipeline.WinSpec sig grid0.rank :=
  Pipeline.WinSpec.ofSpec (Memref.whole main_v9) S1x1x2048.size reads0_2 false false 2 stage0_2 sem0_2 nbuf0_2 hstage0_2

abbrev spec0_3 : Pipeline.WinSpec sig grid0.rank :=
  Pipeline.WinSpec.ofSpec (Memref.whole main_v10) S1x256x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x256x1024.size a ≤ S64x256x1024.size a), EltTy.bits .f32 = 32 ∨ (Rect.block (s := S64x256x1024) S1x256x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x2048.size a ≤ S32x1024x2048.size a), EltTy.bits .f32 = 32 ∨ (Rect.block (s := S32x1024x2048) S1x1024x2048.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S32x1x2048.size a), EltTy.bits .f32 = 32 ∨ (Rect.block (s := S32x1x2048) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x256x2048.size a ≤ S64x256x2048.size a), EltTy.bits .f32 = 32 ∨ (Rect.block (s := S64x256x2048) S1x256x2048.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x256x1024 : Shape := ⟨3, ![64, 256, 1024]⟩
abbrev S64 : Shape := ⟨1, ![64]⟩
abbrev S32x1024x2048 : Shape := ⟨3, ![32, 1024, 2048]⟩
abbrev S32x2048 : Shape := ⟨2, ![32, 2048]⟩
abbrev S_ : Shape := ⟨0, ![]⟩
abbrev S64x1 : Shape := ⟨2, ![64, 1]⟩
abbrev S64x1024x2048 : Shape := ⟨3, ![64, 1024, 2048]⟩
abbrev S64x2048 : Shape := ⟨2, ![64, 2048]⟩
abbrev S64x256x2048 : Shape := ⟨3, ![64, 256, 2048]⟩
abbrev S64x1x2048 : Shape := ⟨3, ![64, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S32x1024x2048, .f32⟩
  | .hbm, ⟨3, _⟩ => ⟨S32x2048, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x2048, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x2048, .f32⟩
  | .hbm, ⟨22, _⟩ => ⟨S64x256x2048, .f32⟩
  | .hbm, ⟨23, _⟩ => ⟨S64x1x2048, .f32⟩
  | .hbm, ⟨24, _⟩ => ⟨S64x256x2048, .f32⟩
  | .hbm, ⟨25, _⟩ => ⟨S64x256x2048, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x2048_S64x1x2048_0_2 : S64x2048.BroadcastsInDim S64x1x2048 (![0, 2] : Fin 2 → Fin S64x1x2048.rank)
  bcast_S64x1x2048_S64x256x2048_0_1_2 : S64x1x2048.BroadcastsInDim S64x256x2048 (![0, 1, 2] : Fin 3 → Fin S64x256x2048.rank)
  gather_S32x1024x2048_S64x1_S64x1024x2048_12_0_n_n_0_1_110242048_wf : GatherDims.WF S32x1024x2048 S64x1 S64x1024x2048 [1, 2] [0] [] [0] [] 1 ![1, 1024, 2048]
  gather_S32x2048_S64x1_S64x2048_1_0_n_n_0_1_12048_wf : GatherDims.WF S32x2048 S64x1 S64x2048 [1] [0] [] [0] [] 1 ![1, 2048]
  dot_S64x256x1024_S64x1024x2048_S64x256x2048_2_1_1_2_0_0_wf : DotDims.WF S64x256x1024 S64x1024x2048 S64x256x2048 [2] [1] [1] [2] [0] [0]

variable [Facts₀]

def gather_S32x1024x2048_S64x1_S64x1024x2048_12_0_n_n_0_1_110242048 : GatherDims S32x1024x2048 S64x1 S64x1024x2048 where
  offsetDims := [1, 2]
  collapsedSliceDims := [0]
  operandBatchingDims := []
  startIndicesBatchingDims := []
  startIndexMap := [0]
  indexVectorDim := 1
  sliceSizes := ![1, 1024, 2048]
  wf := gather_S32x1024x2048_S64x1_S64x1024x2048_12_0_n_n_0_1_110242048_wf
def gather_S32x2048_S64x1_S64x2048_1_0_n_n_0_1_12048 : GatherDims S32x2048 S64x1 S64x2048 where
  offsetDims := [1]
  collapsedSliceDims := [0]
  operandBatchingDims := []
  startIndicesBatchingDims := []
  startIndexMap := [0]
  indexVectorDim := 1
  sliceSizes := ![1, 2048]
  wf := gather_S32x2048_S64x1_S64x2048_1_0_n_n_0_1_12048_wf
def dot_S64x256x1024_S64x1024x2048_S64x256x2048_2_1_1_2_0_0 : DotDims S64x256x1024 S64x1024x2048 S64x256x2048 where
  lhsContracting := [2]
  rhsContracting := [1]
  lhsNonContracting := [1]
  rhsNonContracting := [2]
  lhsBatch := [0]
  rhsBatch := [0]
  wf := dot_S64x256x1024_S64x1024x2048_S64x256x2048_2_1_1_2_0_0_wf

class Facts : Prop extends Facts₀ where

variable [Facts]
-- ==== Proof.CategoryLinear.lean ====
/-
  The function both programs compute, over the extended reals.

  Every sample `b` of the batch carries a category id `cat b`; its rows are multiplied by that category's weight
  matrix and shifted by that category's bias row:

      out[b, t, h] = Σ_k x[b, t, k] · W[cat b, k, h] + bias[cat b, h].

  The id is read as a natural number and capped at the last category, so that the function is total; on ids in
  range (`0 ≤ id < 32`) the cap does nothing.
-/
import Idealize.ShloMosaic.PureOps.Ideal
import Idealize.ShloMosaic.Lib.ValueIdx

noncomputable section

open scoped BigOperators

namespace Cert.CategoryLinear

open Idealize.ShloMosaic Idealize.ShloMosaic.ValueIdx

/-- The category of sample `b`: its id as a natural number, capped at the last of the 32 categories. -/
def category (cat : IVec ⟨1, ![64]⟩ 32) (b : Fin 64) : Fin 32 :=
  ⟨min (cat (ix1 b)).toNat 31, by omega⟩

/-- An id in range is its own category. -/
theorem category_val (cat : IVec ⟨1, ![64]⟩ 32) (b : Fin 64) (h : (cat (ix1 b)).toNat < 32) :
    (category cat b).val = (cat (ix1 b)).toNat := by
  show min _ 31 = _
  omega

/-- Entry `(b, t, h)` of the result: row `t` of sample `b` against column `h` of its category's matrix, plus that
    category's bias at `h`. -/
def entry (x : FVec Ideal ⟨3, ![64, 256, 1024]⟩ .f32) (cat : IVec ⟨1, ![64]⟩ 32)
    (W : FVec Ideal ⟨3, ![32, 1024, 2048]⟩ .f32) (bias : FVec Ideal ⟨2, ![32, 2048]⟩ .f32)
    (b : Fin 64) (t : Fin 256) (h : Fin 2048) : Ideal .f32 :=
  (∑ k : Fin 1024, x (ix3 b t k) * W (ix3 (category cat b) k h)) + bias (ix2 (category cat b) h)

/-- The whole result array. -/
def linear (x : FVec Ideal ⟨3, ![64, 256, 1024]⟩ .f32) (cat : IVec ⟨1, ![64]⟩ 32)
    (W : FVec Ideal ⟨3, ![32, 1024, 2048]⟩ .f32) (bias : FVec Ideal ⟨2, ![32, 2048]⟩ .f32) :
    FVec Ideal ⟨3, ![64, 256, 2048]⟩ .f32 :=
  fun j => entry x cat W bias (j 0) (j 1) (j 2)

theorem linear_apply (x : FVec Ideal ⟨3, ![64, 256, 1024]⟩ .f32) (cat : IVec ⟨1, ![64]⟩ 32)
    (W : FVec Ideal ⟨3, ![32, 1024, 2048]⟩ .f32) (bias : FVec Ideal ⟨2, ![32, 2048]⟩ .f32)
    (b : Fin 64) (t : Fin 256) (h : Fin 2048) :
    linear x cat W bias (ix3 b t h) = entry x cat W bias b t h := rfl

end Cert.CategoryLinear

end
-- ==== Proof.CategoryRange.lean ====
/-
  The precondition, decoded.

  The precondition is a conjunction: the three float arguments are finite, and every category id `w` satisfies
  `0 ≤ w` and `w < 32`, both read signed. Only the last conjunct is used here. A 32-bit word that is
  nonnegative when read signed is its own natural value, and then `w < 32` signed says that natural value is
  below 32.
-/
import proofs.«412331_j5815385718920_3_alg».proof.Pre_finite_inputs
import proofs.«412331_j5815385718920_3_alg».proof.Proof.Gen.Pre_finite_inputs
import Idealize.ShloMosaic.Lib.ReduceAll
import Idealize.ShloMosaic.Lib.ValueIdx
import Idealize.ShloMosaic.Lib.StableHlo.Predicate

namespace Cert.CategoryRange

open Idealize.ShloMosaic Idealize.ShloMosaic.ValueIdx

/-- The scalar shape has one index. -/
instance : Subsingleton Cert.Pre_finite_inputs.S_.Idx := ⟨fun a b => funext fun d => d.elim0⟩

/-- A 32-bit word that is nonnegative and below 32 when read signed has natural value below 32. -/
theorem toNat_lt_of_signed (w : BitVec 32) (h0 : (0#32 : BitVec 32).toInt ≤ w.toInt)
    (h1 : w.toInt < (32#32 : BitVec 32).toInt) : w.toNat < 32 := by
  have e0 : (0#32 : BitVec 32).toInt = 0 := by decide
  have e1 : (32#32 : BitVec 32).toInt = 32 := by decide
  rw [e0] at h0
  rw [e1] at h1
  have hw := BitVec.toInt_eq_toNat_cond w
  have hlt := w.isLt
  split at hw <;> omega

/-- Under the precondition every category id, read as a natural number, is below 32. -/
theorem cat_lt_of_pre {F : FTy → Type} [FloatOps F] [Cert.Pre_finite_inputs.Facts]
    (x : FVec F Cert.Pre_finite_inputs.S64x256x1024 .f32) (cat : IVec Cert.Pre_finite_inputs.S64 32)
    (W : FVec F Cert.Pre_finite_inputs.S32x1024x2048 .f32) (b : FVec F Cert.Pre_finite_inputs.S32x2048 .f32)
    (h : Cert.Pre_finite_inputs.fn (F := F) x cat W b = fun _ => 1#1) :
    ∀ s : Fin 64, (cat (Idealize.ShloMosaic.ValueIdx.ix1 s)).toNat < 32 := by
  intro s
  have h0 := congrFun h ValueIdx.ix0
  dsimp only [Cert.Pre_finite_inputs.fn, Cert.Pre_finite_inputs.fn_part1] at h0
  -- the outer conjunction: finiteness of the float arguments, and the range of the ids
  obtain ⟨-, hall⟩ := IntOp.andi_eq_one.1 h0
  -- the conjunction over all 64 ids, read at sample `s`
  have hs := Host.reduce_andi_all _ _ _ _ _ hall (ix1 s)
  obtain ⟨hge, hlt⟩ := IntOp.andi_eq_one.1 hs
  exact toNat_lt_of_signed _ (IntOp.cmpi_sge.1 hge) (IntOp.cmpi_slt.1 hlt)

end Cert.CategoryRange
-- ==== Proof.SortedOrder.lean ====
/-
  The two tables the kernel sorts its samples with, as pure functions of the category ids.

  The ids are first clipped into `[0, 31]`; ids already in range are unchanged (`clip_eq`). The 64 samples are then
  sorted by id, stably and ascending in the signed order: position `i` of the sorted sequence holds sample
  `order key i`, and `order key` is a permutation of the 64 samples. The first table is that permutation written as
  words (`argsort_apply`); the second is the keys read through it, `key (order key i)` (`take_apply`: the read
  wraps a negative position and clamps into `[0, 63]`, neither of which touches a sample number).
-/
import Idealize.ShloMosaic.Lib.SortFacts
import Idealize.ShloMosaic.Lib.StableHlo.Predicate
import Idealize.ShloMosaic.Lib.ValueIdx

noncomputable section

namespace Cert.SortedOrder

open Idealize.ShloMosaic Idealize.ShloMosaic.ValueIdx Idealize.ShloMosaic.StableHlo.Predicate

/-- The two spellings of "the index at position `k`" agree. -/
theorem ofFin_eq_ix1 (k : Fin 64) : (Shape.Idx.ofFin k : (⟨1, ![64]⟩ : Shape).Idx) = ix1 k := by
  funext a
  match a with
  | ⟨0, _⟩ => rfl

/-! ## Clipping an id that is in range -/

/-- `min 31 (max 0 w) = w` in the signed order, for `0 ≤ w < 32`. -/
theorem clip_word (w : BitVec 32) (hw : w.toNat < 32) : IntOp.minsi 31#32 (IntOp.maxsi 0#32 w) = w := by
  have hi : w.toInt = (w.toNat : Int) := toInt_eq_toNat_of_lt (by omega)
  have h0 : (0#32 : BitVec 32).toInt = 0 := by decide
  have h31 : (31#32 : BitVec 32).toInt = 31 := by decide
  have hmax : IntOp.maxsi 0#32 w = w := by
    unfold IntOp.maxsi
    split
    · rename_i hc
      simp only [BitVec.slt, hi, h0, decide_eq_true_eq] at hc
      omega
    · rfl
  rw [hmax]
  unfold IntOp.minsi
  split
  · rename_i hc
    simp only [BitVec.slt, hi, h31, decide_eq_true_eq] at hc
    omega
  · rfl

/-- The clip of the whole id vector leaves ids in range unchanged. -/
theorem clip_eq (hb : (⟨0, ![]⟩ : Shape).BroadcastsInDim ⟨1, ![64]⟩ ![]) (cat : IVec ⟨1, ![64]⟩ 32)
    (hcat : ∀ s : Fin 64, (cat (ix1 s)).toNat < 32) :
    minsi (broadcastInDim ⟨1, ![64]⟩ ![] hb (id (constantI ⟨0, ![]⟩ 32 31#32)))
      (maxsi (broadcastInDim ⟨1, ![64]⟩ ![] hb (id (constantI ⟨0, ![]⟩ 32 0#32))) cat) = cat := by
  funext j
  obtain ⟨s, rfl⟩ : ∃ s : Fin 64, j = ix1 s := ⟨j 0, eq_ix1 j⟩
  show IntOp.minsi 31#32 (IntOp.maxsi 0#32 (cat (ix1 s))) = cat (ix1 s)
  exact clip_word _ (hcat s)

/-! ## The sorting permutation -/

/-- Sample `k` sorts strictly before sample `k'`: its key is smaller in the signed order. -/
def before (key : IVec ⟨1, ![64]⟩ 32) (k k' : Fin 64) : Bool :=
  IntOp.cmpi .slt (key (Shape.Idx.ofFin k)) (key (Shape.Idx.ofFin k')) == 1#1

/-- The sample that a stable ascending sort by `key` puts at position `i`. -/
def order (key : IVec ⟨1, ![64]⟩ 32) : Fin 64 → Fin 64 := sortedFrom (before key)

theorem order_injective (key : IVec ⟨1, ![64]⟩ 32) : Function.Injective (order key) := sortedFrom_injective _
theorem order_surjective (key : IVec ⟨1, ![64]⟩ 32) : Function.Surjective (order key) := sortedFrom_surjective _

/-- A sample number as a word, read back. -/
theorem toNat_ofNat_fin (k : Fin 64) : (BitVec.ofNat 32 k.val).toNat = k.val := by
  have := k.isLt
  simp only [BitVec.toNat_ofNat]
  omega

/-- Moving along the one axis of a vector lands on the position moved to. -/
theorem along_mk {n : Nat} (j : (⟨1, ![n]⟩ : Shape).Idx) (h : 0 < (⟨1, ![n]⟩ : Shape).rank) (k : Fin n) :
    j.along ⟨0, h⟩ k = Shape.Idx.ofFin k := Shape.Idx.along_rank1 j k
theorem ofFin_mk {n : Nat} (i : Fin n) (h : 0 < (⟨1, ![n]⟩ : Shape).rank) :
    (Shape.Idx.ofFin i : (⟨1, ![n]⟩ : Shape).Idx) ⟨0, h⟩ = i := Fin.ext rfl

-- a coordinate of an index is typed by the shape's size at its axis, which is the literal 64 only after unfolding
set_option backward.isDefEq.respectTransparency.types false in
/-- The argsort — the sort of (key, position) pairs by key, of which the positions are kept — holds at `i` the
    sample `order key i`, as a word. -/
theorem argsort_apply (cmp : BitVec 32 × BitVec 32 → BitVec 32 × BitVec 32 → BitVec 1)
    (hcmp : ∀ l r, cmp l r = IntOp.cmpi .slt l.1 r.1) (key : IVec ⟨1, ![64]⟩ 32) (i : Fin 64) :
    (Host.sort2 ⟨1, ![64]⟩ 0 cmp key (iotaInDim ⟨1, ![64]⟩ 32 0)).2 (Shape.Idx.ofFin i)
      = BitVec.ofNat 32 (order key i).val := by
  unfold Host.sort2
  simp only [show (0 : Nat) < (⟨1, ![64]⟩ : Shape).rank from Nat.one_pos, ↓reduceDIte]
  simp only [along_mk, hcmp, ofFin_mk, iota_apply]
  unfold order before
  rfl

/-! ## The keys read through the permutation -/

/-- A sample number as a word is not negative. -/
theorem not_slt_zero_ofNat (k : Fin 64) : IntOp.cmpi .slt (BitVec.ofNat 32 k.val) 0#32 ≠ 1#1 := by
  have hk := k.isLt
  have hi : (BitVec.ofNat 32 k.val).toInt = (k.val : Int) := toInt_ofNat_small k.val (by omega)
  have h0 : (0#32 : BitVec 32).toInt = 0 := by decide
  unfold IntOp.cmpi
  rw [Ne, ofBool_eq_one_iff]
  simp only [BitVec.slt, hi, h0, decide_eq_true_eq]
  omega

/-- `key[perm]` for a table `perm` of sample numbers `σ i`: position `i` reads the key of sample `σ i`. The printed
    read first adds 64 to a negative position and then clamps into `[0, 63]`; a sample number needs neither. -/
theorem take_apply (d : GatherDims ⟨1, ![64]⟩ ⟨2, ![64, 1]⟩ ⟨1, ![64]⟩)
    (hcoll : d.collapsedSliceDims = [0]) (hob : d.operandBatchingDims = [])
    (hsim : d.startIndexMap = [0]) (hivd : d.indexVectorDim = 1)
    (hb0 : (⟨0, ![]⟩ : Shape).BroadcastsInDim ⟨1, ![64]⟩ ![]) (hb1 : (⟨1, ![64]⟩ : Shape).BroadcastsInDim ⟨2, ![64, 1]⟩ ![0])
    (key perm : IVec ⟨1, ![64]⟩ 32) (σ : Fin 64 → Fin 64)
    (hperm : ∀ i, perm (Shape.Idx.ofFin i) = BitVec.ofNat 32 (σ i).val) (i : Fin 64) :
    Host.gather d key (broadcastInDim ⟨2, ![64, 1]⟩ ![0] hb1
        (select (cmpi .slt perm (broadcastInDim ⟨1, ![64]⟩ ![] hb0 (constantI ⟨0, ![]⟩ 32 0#32)))
          (addi perm (broadcastInDim ⟨1, ![64]⟩ ![] hb0 (constantI ⟨0, ![]⟩ 32 64#32))) perm)) (Shape.Idx.ofFin i)
      = key (Shape.Idx.ofFin (σ i)) := by
  rw [gather_take d hcoll hob hsim hivd _ _ i (by decide)]
  have hw : select (cmpi .slt perm (broadcastInDim ⟨1, ![64]⟩ ![] hb0 (constantI ⟨0, ![]⟩ 32 0#32)))
      (addi perm (broadcastInDim ⟨1, ![64]⟩ ![] hb0 (constantI ⟨0, ![]⟩ 32 64#32))) perm (Shape.Idx.ofFin i)
      = BitVec.ofNat 32 (σ i).val := by
    show Scalar.select (IntOp.cmpi .slt (perm (Shape.Idx.ofFin i)) 0#32) _ (perm (Shape.Idx.ofFin i)) = _
    rw [hperm]
    exact if_neg (not_slt_zero_ofNat (σ i))
  refine congrArg key (congrArg Shape.Idx.ofFin (Fin.ext ?_))
  show min _ (64 - 1) = (σ i).val
  rw [bcast_col1, hw, toInt_ofNat_small _ (by have := (σ i).isLt; omega)]
  have := (σ i).isLt
  simp only [Int.toNat_natCast]
  omega

end Cert.SortedOrder

end
-- ==== Proof.SortedTables.lean ====
/-
  The kernel's two tables and its index maps.

  Before the grid runs, the program clips the 64 category ids into `[0, 31]`, sorts the samples by clipped id (stably,
  ascending in the signed order) and keeps two tables of 64 words: the first holds, at position `i`, the number of
  the sample the sort puts there; the second holds that sample's clipped id. Under the hypothesis that every id is
  below 32 the clip does nothing, so the first table is the sorting permutation `sample` of the ids themselves and the
  second is the ids read through it.

  Every index map of the grid reads one word of one table at the grid coordinate and returns it as the leading block
  index, the other two being zero. These closed forms are proved at arbitrary table contents; the side condition of
  the pipeline — every block so indexed lies inside its array — then follows from the two tables' words being a
  sample number (below 64) and a category id (below 32).
-/
import proofs.«412331_j5815385718920_3_alg».proof.Proof.Gen.KernelIdeal.Frame
import proofs.«412331_j5815385718920_3_alg».proof.Proof.SortedOrder
import Idealize.ShloMosaic.Lib.StableHlo.Run

set_option maxRecDepth 16384

noncomputable section

namespace Cert.KernelIdeal.Tables

open Cert.KernelIdeal Cert.KernelIdeal.Gen Idealize.ShloMosaic Idealize.ShloMosaic.TcCoe Idealize.SL.Sem
  Idealize.ShloMosaic.StableHlo Idealize.ShloMosaic.ValueIdx

variable {F : FTy → Type} [FloatOps F] (m : (ℓ : Loc nD τ sig) → Buf (Elt F) ℓ)

/-! ## The index maps in closed form, at any contents of the tables -/

/-- The one index of a unit rectangle at offset `k` of a vector of 64 is position `k`. -/
theorem unit_emb (k : Fin 64) (off : Fin 1 → Nat) (hoff : off 0 = k.val)
    (inb : ∀ a, off a + S1.size a ≤ S64.size a) (h1 : 0 < S1.numel) :
    (Rect.unit (s := S64) off S1.size inb).emb (Shape.Idx.first h1) = Shape.Idx.ofFin k := by
  funext a
  match a with
  | ⟨0, _⟩ =>
    refine Fin.ext ?_
    show off 0 + 1 * 0 = k.val
    omega

/-- A grid coordinate, as a 32-bit word cast to an index, reads back as itself. -/
theorem coord_word (i : grid0.Coords) :
    (![(Scalar.indexCast (BitVec.ofNat 32 (i 0).val)).toNat] : Fin 1 → Nat) 0 = (i 0).val := by
  have hlt : (i 0).val < 64 := (i 0).isLt
  show (BitVec.ofNat 32 (i 0).val).toNat = (i 0).val
  simp only [BitVec.toNat_ofNat]
  omega

/-- The index map of the window of samples' rows: block `(first table at the grid coordinate, 0, 0)`. -/
theorem transform0_eq (pf : pre0.Contents (Elt F)) (i : grid0.Coords) :
    cc0_transform_0 k0_off1_inb numel1_S1 pf i = ![(pf 0 (Shape.Idx.ofFin (i 0))).toNat, 0, 0] :=
  congrArg (fun w : BitVec 32 => (![w.toNat, 0, 0] : Fin 3 → Nat))
    (congrArg (pf 0) (unit_emb (i 0) _ (coord_word i) _ _))

/-- The index map of the window of weight matrices: block `(second table at the grid coordinate, 0, 0)`. -/
theorem transform1_eq (pf : pre0.Contents (Elt F)) (i : grid0.Coords) :
    cc0_transform_1 k0_off1_inb numel1_S1 pf i = ![(pf 1 (Shape.Idx.ofFin (i 0))).toNat, 0, 0] :=
  congrArg (fun w : BitVec 32 => (![w.toNat, 0, 0] : Fin 3 → Nat))
    (congrArg (pf 1) (unit_emb (i 0) _ (coord_word i) _ _))

/-- The index map of the window of bias rows: block `(second table at the grid coordinate, 0, 0)`. -/
theorem transform2_eq (pf : pre0.Contents (Elt F)) (i : grid0.Coords) :
    cc0_transform_2 k0_off1_inb numel1_S1 pf i = ![(pf 1 (Shape.Idx.ofFin (i 0))).toNat, 0, 0] :=
  congrArg (fun w : BitVec 32 => (![w.toNat, 0, 0] : Fin 3 → Nat))
    (congrArg (pf 1) (unit_emb (i 0) _ (coord_word i) _ _))

/-- The index map of the result's window: block `(first table at the grid coordinate, 0, 0)`. -/
theorem transform3_eq (pf : pre0.Contents (Elt F)) (i : grid0.Coords) :
    cc0_transform_3 k0_off1_inb numel1_S1 pf i = ![(pf 0 (Shape.Idx.ofFin (i 0))).toNat, 0, 0] :=
  congrArg (fun w : BitVec 32 => (![w.toNat, 0, 0] : Fin 3 → Nat))
    (congrArg (pf 0) (unit_emb (i 0) _ (coord_word i) _ _))

/-! ## The two tables as the program computes them -/

/-- The category ids the launch memory holds. -/
abbrev cats : IVec S64 32 := m (((0 : Dev nD) : Thread nD τ).loc main_arg1)

/-- The ids clipped into `[0, 31]`, as the program writes the clip. -/
abbrev clipped (cat : IVec S64 32) : IVec S64 32 :=
  minsi (broadcastInDim S64 ![] bcast_S_S64 (id (constantI S_ 32 31#32)))
    (maxsi (broadcastInDim S64 ![] bcast_S_S64 (id (constantI S_ 32 0#32))) cat)

/-- The sorting permutation of the clipped ids, as the program writes the argsort. -/
abbrev sortedPerm (key : IVec S64 32) : IVec S64 32 :=
  (Host.sort2 S64 0 comparator_i32_i32_d0 key (iotaInDim S64 32 0)).2

/-- The keys read through a table of positions, as the program writes the read. -/
abbrev takeThrough (key perm : IVec S64 32) : IVec S64 32 :=
  Host.gather gather_S64_S64x1_S64_n_0_n_n_0_1_1 key (broadcastInDim S64x1 ![0] bcast_S64_S64x1_0
    (select (cmpi .slt perm (broadcastInDim S64 ![] bcast_S_S64 (constantI S_ 32 0#32)))
      (addi perm (broadcastInDim S64 ![] bcast_S_S64 (constantI S_ 32 64#32))) perm))

/-- The first table is the sorting permutation of the clipped ids. -/
theorem tbl0_eq : tbl m 0 = sortedPerm (clipped (cats m)) := by
  show V m 0 main_v1 = _
  dsimp only [Gen.V]
  simp only [Gen.hostOps0, Gen.hostOps0_1, Gen.hostOps0_2, Gen.hostOps0_3, List.flatten_cons, List.flatten_nil,
    List.append_nil, List.cons_append, List.nil_append]
  after_results
  rfl

set_option maxHeartbeats 400000 in
/-- The second table is the clipped ids read through the first. -/
theorem tbl1_eq : tbl m 1 = takeThrough (clipped (cats m)) (sortedPerm (clipped (cats m))) := by
  show V m 0 main_v8 = _
  dsimp only [Gen.V]
  simp only [Gen.hostOps0, Gen.hostOps0_1, Gen.hostOps0_2, Gen.hostOps0_3, List.flatten_cons, List.flatten_nil,
    List.append_nil, List.cons_append, List.nil_append]
  after_results_simp
  rfl

/-! ## The two tables under the hypothesis on the ids -/

/-- The sample handled at grid point `i`: the one a stable ascending sort by category id puts at position `i`. -/
def sample (i : Fin 64) : Fin 64 := Cert.SortedOrder.order (cats m) i

theorem sample_injective : Function.Injective (sample m) := Cert.SortedOrder.order_injective (cats m)

theorem sample_surjective : Function.Surjective (sample m) := Cert.SortedOrder.order_surjective (cats m)

/-- Ids in range are their own clip. -/
theorem clipped_eq (hcat : ∀ s : Fin 64, (cats m (ix1 s)).toNat < 32) : clipped (cats m) = cats m :=
  Cert.SortedOrder.clip_eq bcast_S_S64 (cats m) hcat

/-- The first table at position `i` is the number of the sample sorted to `i`, as a word. -/
theorem tbl0_apply (hcat : ∀ s : Fin 64, (cats m (ix1 s)).toNat < 32) (i : Fin 64) :
    tbl m 0 (Shape.Idx.ofFin i) = BitVec.ofNat 32 (sample m i).val := by
  rw [tbl0_eq m, clipped_eq m hcat]
  exact Cert.SortedOrder.argsort_apply comparator_i32_i32_d0 (fun _ _ => rfl) (cats m) i

/-- The second table at position `i` is the category id of the sample sorted to `i`. -/
theorem tbl1_apply (hcat : ∀ s : Fin 64, (cats m (ix1 s)).toNat < 32) (i : Fin 64) :
    tbl m 1 (Shape.Idx.ofFin i) = cats m (Shape.Idx.ofFin (sample m i)) := by
  rw [tbl1_eq m, clipped_eq m hcat]
  exact Cert.SortedOrder.take_apply gather_S64_S64x1_S64_n_0_n_n_0_1_1 rfl rfl rfl rfl bcast_S_S64 bcast_S64_S64x1_0
    (cats m) (sortedPerm (cats m)) (Cert.SortedOrder.order (cats m))
    (fun k => Cert.SortedOrder.argsort_apply comparator_i32_i32_d0 (fun _ _ => rfl) (cats m) k) i

/-! ## The pipeline's side condition -/

/-- The pipeline's side condition at ANY contents whose words are in range: a word of the first table names one of the
    64 samples, a word of the second one of the 32 categories, so every block indexed by one lies inside its array. -/
theorem ok0_of_words (pf : pre0.Contents (Elt F))
    (h0 : ∀ i : grid0.Coords, (pf 0 (Shape.Idx.ofFin (i 0))).toNat < 64)
    (h1 : ∀ i : grid0.Coords, (pf 1 (Shape.Idx.ofFin (i 0))).toNat < 32) : ok0 pf := by
  unfold ok0
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · rw [transform0_eq pf i]
    have hw := h0 i
    generalize (pf 0 (Shape.Idx.ofFin (i 0))).toNat = w at hw ⊢
    match a with
    | ⟨0, _⟩ => show (w + 1) * 1 ≤ 64; omega
    | ⟨1, _⟩ => show (0 + 1) * 256 ≤ 256; omega
    | ⟨2, _⟩ => show (0 + 1) * 1024 ≤ 1024; omega
  · rw [transform1_eq pf i]
    have hw := h1 i
    generalize (pf 1 (Shape.Idx.ofFin (i 0))).toNat = w at hw ⊢
    match a with
    | ⟨0, _⟩ => show (w + 1) * 1 ≤ 32; omega
    | ⟨1, _⟩ => show (0 + 1) * 1024 ≤ 1024; omega
    | ⟨2, _⟩ => show (0 + 1) * 2048 ≤ 2048; omega
  · rw [transform2_eq pf i]
    have hw := h1 i
    generalize (pf 1 (Shape.Idx.ofFin (i 0))).toNat = w at hw ⊢
    match a with
    | ⟨0, _⟩ => show (w + 1) * 1 ≤ 32; omega
    | ⟨1, _⟩ => show (0 + 1) * 1 ≤ 1; omega
    | ⟨2, _⟩ => show (0 + 1) * 2048 ≤ 2048; omega
  · rw [transform3_eq pf i]
    have hw := h0 i
    generalize (pf 0 (Shape.Idx.ofFin (i 0))).toNat = w at hw ⊢
    match a with
    | ⟨0, _⟩ => show (w + 1) * 1 ≤ 64; omega
    | ⟨1, _⟩ => show (0 + 1) * 256 ≤ 256; omega
    | ⟨2, _⟩ => show (0 + 1) * 2048 ≤ 2048; omega

/-- A word of the first table names a sample. -/
theorem word0_lt (hcat : ∀ s : Fin 64, (cats m (ix1 s)).toNat < 32) (i : grid0.Coords) :
    (tbl m 0 (Shape.Idx.ofFin (i 0))).toNat < 64 :=
  lt_of_eq_of_lt
    ((congrArg BitVec.toNat (tbl0_apply m hcat (i 0))).trans (Cert.SortedOrder.toNat_ofNat_fin (sample m (i 0))))
    (sample m (i 0)).isLt

/-- A word of the second table is the category id of a sample, so it names a category. -/
theorem word1_lt (hcat : ∀ s : Fin 64, (cats m (ix1 s)).toNat < 32) (i : grid0.Coords) :
    (tbl m 1 (Shape.Idx.ofFin (i 0))).toNat < 32 :=
  lt_of_eq_of_lt
    ((congrArg BitVec.toNat (tbl1_apply m hcat (i 0))).trans
      (congrArg (fun j => (cats m j).toNat) (Cert.SortedOrder.ofFin_eq_ix1 (sample m (i 0)))))
    (hcat (sample m (i 0)))

/-- With every category id below 32, the tables the program computes satisfy the pipeline's side condition. -/
theorem ok_of_cat (hcat : ∀ s : Fin 64, (cats m (ix1 s)).toNat < 32) : Ok m :=
  ok0_of_words (tbl m) (word0_lt m hcat) (word1_lt m hcat)

/-- The permutation, spelled out. -/
theorem sample_eq_order (i : Fin 64) : sample m i = Cert.SortedOrder.order (cats m) i := rfl

-- from here on the permutation is known only through the facts above
attribute [irreducible] sample

end Cert.KernelIdeal.Tables

end
-- ==== Proof.BlockIndex.lean ====
/-
  Where the pipeline's blocks sit in their arrays, at any contents of the two tables.

  Every window of the call moves only along its array's leading axis: its block at grid point `t` is slab `p` of the
  array, `p` the window's block index there, all of the two trailing axes. So reading a block at `(0, r, k)` reads the
  array at `(p, r, k)`; an index of the result array lies in point `t`'s block exactly when its leading coordinate is
  `p`; and the result's block is written back at every point whose successor moves to another slab.
-/
import proofs.«412331_j5815385718920_3_alg».proof.Proof.Gen.KernelIdeal.Frame
import Idealize.ShloMosaic.Lib.Pipeline.Value
import Idealize.ShloMosaic.Lib.ValueIdx

set_option maxRecDepth 16384

noncomputable section

namespace Cert.KernelIdeal.BlockIndex

open Cert.KernelIdeal Cert.KernelIdeal.Gen
open Idealize.ShloMosaic Idealize.ShloMosaic.TcCoe Idealize.SL.Sem Idealize.ShloMosaic.ValueIdx

variable {F : FTy → Type} [FloatOps F] (a : (pcfg0 (F := F)).Adm)

/-- The grid has one axis of 64 points: point `t`'s coordinate is `t`. -/
theorem coords_val (t : Fin grid0.N) : ((grid0.coords t) 0).val = t.val := by
  show t.val / grid0.stride 0 % grid0.bound 0 = t.val
  have h1 : grid0.stride 0 = 1 := by decide
  have h2 : grid0.bound 0 = 64 := rfl
  have h3 : grid0.N = 64 := by decide
  have := t.isLt
  rw [h1, h2, Nat.div_one]
  omega

/-- The index maps are the printed ones at the tables' contents. -/
theorem index0_eq (t : Fin (cfg0 a).N) :
    ((cfg0 a).win 0).index t = cc0_transform_0 k0_off1_inb numel1_S1 a.1 (grid0.coords t) := rfl
theorem index1_eq (t : Fin (cfg0 a).N) :
    ((cfg0 a).win 1).index t = cc0_transform_1 k0_off1_inb numel1_S1 a.1 (grid0.coords t) := rfl
theorem index2_eq (t : Fin (cfg0 a).N) :
    ((cfg0 a).win 2).index t = cc0_transform_2 k0_off1_inb numel1_S1 a.1 (grid0.coords t) := rfl
theorem index3_eq (t : Fin (cfg0 a).N) :
    ((cfg0 a).win 3).index t = cc0_transform_3 k0_off1_inb numel1_S1 a.1 (grid0.coords t) := rfl

/-! ## A block's element in its array -/

/-- Window 0 (the samples' rows): slab `p` of `[64, 256, 1024]`. -/
theorem emb0 (t : Fin (cfg0 a).N) (y : S1x256x1024.Idx) (p : Fin 64)
    (h : ((cfg0 a).win 0).index t = ![p.val, 0, 0]) :
    (((cfg0 a).win 0).blk t).view.emb y = (ix3 p (y 1) (y 2) : S64x256x1024.Idx) := by
  have h0 := congrFun h (0 : Fin 3)
  have h1 := congrFun h (1 : Fin 3)
  have h2 := congrFun h (2 : Fin 3)
  funext ax
  apply Fin.ext
  match ax with
  | ⟨0, _⟩ =>
    show ((cfg0 a).win 0).index t (0 : Fin 3) * 1 + 1 * (y 0).val = p.val
    have hy : (y 0).val < 1 := (y 0).isLt
    rw [h0]; show p.val * 1 + 1 * (y 0).val = p.val; omega
  | ⟨1, _⟩ =>
    show ((cfg0 a).win 0).index t (1 : Fin 3) * 256 + 1 * (y 1).val = (y 1).val
    rw [h1]; show 0 * 256 + 1 * (y 1).val = (y 1).val; omega
  | ⟨2, _⟩ =>
    show ((cfg0 a).win 0).index t (2 : Fin 3) * 1024 + 1 * (y 2).val = (y 2).val
    rw [h2]; show 0 * 1024 + 1 * (y 2).val = (y 2).val; omega

/-- Window 1 (the weights): slab `q` of `[32, 1024, 2048]`. -/
theorem emb1 (t : Fin (cfg0 a).N) (y : S1x1024x2048.Idx) (q : Fin 32)
    (h : ((cfg0 a).win 1).index t = ![q.val, 0, 0]) :
    (((cfg0 a).win 1).blk t).view.emb y = (ix3 q (y 1) (y 2) : S32x1024x2048.Idx) := by
  have h0 := congrFun h (0 : Fin 3)
  have h1 := congrFun h (1 : Fin 3)
  have h2 := congrFun h (2 : Fin 3)
  funext ax
  apply Fin.ext
  match ax with
  | ⟨0, _⟩ =>
    show ((cfg0 a).win 1).index t (0 : Fin 3) * 1 + 1 * (y 0).val = q.val
    have hy : (y 0).val < 1 := (y 0).isLt
    rw [h0]; show q.val * 1 + 1 * (y 0).val = q.val; omega
  | ⟨1, _⟩ =>
    show ((cfg0 a).win 1).index t (1 : Fin 3) * 1024 + 1 * (y 1).val = (y 1).val
    rw [h1]; show 0 * 1024 + 1 * (y 1).val = (y 1).val; omega
  | ⟨2, _⟩ =>
    show ((cfg0 a).win 1).index t (2 : Fin 3) * 2048 + 1 * (y 2).val = (y 2).val
    rw [h2]; show 0 * 2048 + 1 * (y 2).val = (y 2).val; omega

/-- Window 2 (the bias rows, kept as `[32, 1, 2048]`): slab `q`. -/
theorem emb2 (t : Fin (cfg0 a).N) (y : S1x1x2048.Idx) (q : Fin 32)
    (h : ((cfg0 a).win 2).index t = ![q.val, 0, 0]) :
    (((cfg0 a).win 2).blk t).view.emb y = (ix3 q (y 1) (y 2) : S32x1x2048.Idx) := by
  have h0 := congrFun h (0 : Fin 3)
  have h1 := congrFun h (1 : Fin 3)
  have h2 := congrFun h (2 : Fin 3)
  funext ax
  apply Fin.ext
  match ax with
  | ⟨0, _⟩ =>
    show ((cfg0 a).win 2).index t (0 : Fin 3) * 1 + 1 * (y 0).val = q.val
    have hy : (y 0).val < 1 := (y 0).isLt
    rw [h0]; show q.val * 1 + 1 * (y 0).val = q.val; omega
  | ⟨1, _⟩ =>
    show ((cfg0 a).win 2).index t (1 : Fin 3) * 1 + 1 * (y 1).val = (y 1).val
    rw [h1]; show 0 * 1 + 1 * (y 1).val = (y 1).val; omega
  | ⟨2, _⟩ =>
    show ((cfg0 a).win 2).index t (2 : Fin 3) * 2048 + 1 * (y 2).val = (y 2).val
    rw [h2]; show 0 * 2048 + 1 * (y 2).val = (y 2).val; omega

/-- Window 3 (the result): slab `p` of `[64, 256, 2048]`. -/
theorem emb3 (t : Fin (cfg0 a).N) (y : S1x256x2048.Idx) (p : Fin 64)
    (h : ((cfg0 a).win 3).index t = ![p.val, 0, 0]) :
    (((cfg0 a).win 3).blk t).view.emb y = (ix3 p (y 1) (y 2) : S64x256x2048.Idx) := by
  have h0 := congrFun h (0 : Fin 3)
  have h1 := congrFun h (1 : Fin 3)
  have h2 := congrFun h (2 : Fin 3)
  funext ax
  apply Fin.ext
  match ax with
  | ⟨0, _⟩ =>
    show ((cfg0 a).win 3).index t (0 : Fin 3) * 1 + 1 * (y 0).val = p.val
    have hy : (y 0).val < 1 := (y 0).isLt
    rw [h0]; show p.val * 1 + 1 * (y 0).val = p.val; omega
  | ⟨1, _⟩ =>
    show ((cfg0 a).win 3).index t (1 : Fin 3) * 256 + 1 * (y 1).val = (y 1).val
    rw [h1]; show 0 * 256 + 1 * (y 1).val = (y 1).val; omega
  | ⟨2, _⟩ =>
    show ((cfg0 a).win 3).index t (2 : Fin 3) * 2048 + 1 * (y 2).val = (y 2).val
    rw [h2]; show 0 * 2048 + 1 * (y 2).val = (y 2).val; omega

/-! ## Reading a block -/

theorem read0 (t : Fin (cfg0 a).N) (A : S64x256x1024.Idx → Elt F .f32) (y : S1x256x1024.Idx) (p : Fin 64)
    (h : ((cfg0 a).win 0).index t = ![p.val, 0, 0]) :
    (((cfg0 a).win 0).blk t).view.read (Elt F) A y = A (ix3 p (y 1) (y 2)) := by
  show A ((((cfg0 a).win 0).blk t).view.emb y) = _
  rw [emb0 a t y p h]

theorem read1 (t : Fin (cfg0 a).N) (A : S32x1024x2048.Idx → Elt F .f32) (y : S1x1024x2048.Idx) (q : Fin 32)
    (h : ((cfg0 a).win 1).index t = ![q.val, 0, 0]) :
    (((cfg0 a).win 1).blk t).view.read (Elt F) A y = A (ix3 q (y 1) (y 2)) := by
  show A ((((cfg0 a).win 1).blk t).view.emb y) = _
  rw [emb1 a t y q h]

theorem read2 (t : Fin (cfg0 a).N) (A : S32x1x2048.Idx → Elt F .f32) (y : S1x1x2048.Idx) (q : Fin 32)
    (h : ((cfg0 a).win 2).index t = ![q.val, 0, 0]) :
    (((cfg0 a).win 2).blk t).view.read (Elt F) A y = A (ix3 q (y 1) (y 2)) := by
  show A ((((cfg0 a).win 2).blk t).view.emb y) = _
  rw [emb2 a t y q h]

theorem read3 (t : Fin (cfg0 a).N) (A : S64x256x2048.Idx → Elt F .f32) (y : S1x256x2048.Idx) (p : Fin 64)
    (h : ((cfg0 a).win 3).index t = ![p.val, 0, 0]) :
    (((cfg0 a).win 3).blk t).view.read (Elt F) A y = A (ix3 p (y 1) (y 2)) := by
  show A ((((cfg0 a).win 3).blk t).view.emb y) = _
  rw [emb3 a t y p h]

/-! ## The result's blocks: which indices they hold, and when they are written back -/

-- the block's rectangle is typed by the window's shape, which is the array's only after unfolding
set_option backward.isDefEq.respectTransparency.types false in
/-- An index of the result is in point `t`'s block exactly when its leading coordinate is the block's slab. -/
theorem mem_blk3 (t : Fin (cfg0 a).N) (i : S64x256x2048.Idx) (p : Fin 64)
    (h : ((cfg0 a).win 3).index t = ![p.val, 0, 0]) :
    i ∈ (((cfg0 a).win 3).blk t).view.set ↔ (i 0).val = p.val := by
  have h0 := congrFun h (0 : Fin 3)
  have h1 := congrFun h (1 : Fin 3)
  have h2 := congrFun h (2 : Fin 3)
  show i ∈ ((View.whole main_v10).slice (((cfg0 a).win 3).rect t)).set ↔ _
  rw [View.set_slice_whole]
  refine Rect.mem_set_unit.trans ?_
  constructor
  · intro hi
    have b0 : ((cfg0 a).win 3).index t (0 : Fin 3) * 1 ≤ (i 0).val ∧ (i 0).val < ((cfg0 a).win 3).index t (0 : Fin 3) * 1 + 1 := hi 0
    rw [h0] at b0
    have b0' : p.val * 1 ≤ (i 0).val ∧ (i 0).val < p.val * 1 + 1 := b0
    omega
  · intro hp ax
    match ax with
    | ⟨0, _⟩ =>
      show ((cfg0 a).win 3).index t (0 : Fin 3) * 1 ≤ (i 0).val ∧ (i 0).val < ((cfg0 a).win 3).index t (0 : Fin 3) * 1 + 1
      rw [h0]; show p.val * 1 ≤ (i 0).val ∧ (i 0).val < p.val * 1 + 1; omega
    | ⟨1, _⟩ =>
      show ((cfg0 a).win 3).index t (1 : Fin 3) * 256 ≤ (i 1).val ∧ (i 1).val < ((cfg0 a).win 3).index t (1 : Fin 3) * 256 + 256
      have := (i 1).isLt
      have e : S64x256x2048.size 1 = 256 := rfl
      rw [h1]; show 0 * 256 ≤ (i 1).val ∧ (i 1).val < 0 * 256 + 256; omega
    | ⟨2, _⟩ =>
      show ((cfg0 a).win 3).index t (2 : Fin 3) * 2048 ≤ (i 2).val ∧ (i 2).val < ((cfg0 a).win 3).index t (2 : Fin 3) * 2048 + 2048
      have := (i 2).isLt
      have e : S64x256x2048.size 2 = 2048 := rfl
      rw [h2]; show 0 * 2048 ≤ (i 2).val ∧ (i 2).val < 0 * 2048 + 2048; omega

/-- The result's block is written back at `t` when the next point, if there is one, moves to another block. -/
theorem flush3_of (t : Fin (cfg0 a).N)
    (hne : ∀ h : t.val + 1 < (cfg0 a).N, ((cfg0 a).win 3).index ⟨t.val + 1, h⟩ ≠ ((cfg0 a).win 3).index t) :
    ((cfg0 a).win 3).flush t = true := by
  unfold Pipeline.Window.flush
  rw [show ((cfg0 a).win 3).isOut = true from rfl, Bool.true_and, Bool.or_eq_true, decide_eq_true_eq, decide_eq_true_eq]
  by_cases hl : t.val + 1 = (cfg0 a).N
  · exact Or.inl hl
  · have := t.isLt
    have e : (cfg0 a).N = (cfg0 a).grid.N := rfl
    exact Or.inr ⟨by omega, hne _⟩

end Cert.KernelIdeal.BlockIndex

end
-- ==== Proof.BodyValue.lean ====
/-
  What the kernel body leaves in its output block.

  The body loads the activation block x : [1,256,1024], the weight block W : [1,1024,2048] and the bias block
  b : [1,1,2048], and stores ONE value over the whole output block [1,256,2048]:
      shapeCast (matmul (truncf (shapeCast x)) (truncf (shapeCast W)) 0 + broadcast (shapeCast (shapeCast b))).
  Two facts are proved here.
    * `out_eq_payload` (any float instance): the output block after the body IS that stored value, as a function of the
      three loaded blocks — the body's one store covers the block, and its loads read whole buffers.
    * `payload_apply` (ideal values): read at (0, t, h) the stored value is
      (∑ k, x (0,t,k) * W (0,k,h)) + b (0,0,h) — the casts only re-index, the change of float format is the
      identity on ideal values, the product into the zero accumulator is the plain sum over the contracted axis,
      and the bias row is read at every t.
-/
import proofs.«412331_j5815385718920_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx
open Idealize.ShloMosaic.TcCoe Idealize.ShloMosaic.Tactic Idealize.SL.Sem

/-! ## The block after the body is the stored value (any float instance) -/

section Piece

variable {F : FTy → Type} [FloatOps F]

/-- The zero offsets of a rank-3 whole-block access, however spelt. -/
theorem hz3 : (![0, 0, 0] : Fin 3 → Nat) = fun _ => 0 := funext fun a => by fin_cases a <;> rfl

/-- The body's one store writes the whole output block, and each of its three loads reads a whole buffer: so the block
    ends as the stored value of the three loaded blocks. -/
theorem out_eq_payload (c : Dev nD) (i : grid0.Coords)
    (arg3 : Memref sig .tc .vmem S1x256x1024 .f32) (harg3 : arg3.IsWhole)
    (arg4 : Memref sig .tc .vmem S1x1024x2048 .f32) (harg4 : arg4.IsWhole)
    (arg5 : Memref sig .tc .vmem S1x1x2048 .f32) (harg5 : arg5.IsWhole)
    (arg6 : Memref sig .tc .vmem S1x256x2048 .f32) (harg6 : arg6.IsWhole)
    (x0 : Vec F S1x256x1024 .f32) (x1 : Vec F S1x1024x2048 .f32) (x2 : Vec F S1x1x2048 .f32)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero hz3]
  simp only [View.readAt_eq_ld, harg3.read_unread, harg4.read_unread, harg5.read_unread,
    View.ld_unit_zero (S := S1x256x1024) hz3, View.ld_unit_zero (S := S1x1024x2048) hz3,
    View.ld_unit_zero (S := S1x1x2048) hz3]

end Piece

/-! ## The stored value read at an index (ideal values) -/

section Value

/-- The left operand's index of the product, on its kept axis 0: the output's row. -/
theorem lhs_dot_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
/-- On its contracted axis 1: the contraction position. -/
theorem lhs_dot_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
/-- The right operand's index, on its contracted axis 0: the contraction position. -/
theorem rhs_dot_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
/-- On its kept axis 1: the output's column. -/
theorem rhs_dot_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product of a [256,1024] and a [1024,2048] operand into the zero accumulator, read at (t, h): the sum over the
    contracted axis of the operands' products. -/
theorem matmul_ix (A : FVec Ideal S256x1024 .bf16) (B : FVec Ideal S1024x2048 .bf16) (t : Fin 256) (h : Fin 2048) :
    matmul dot_S256x1024_S1024x2048_S256x2048_1_0_0_1_n_n none A B (constant (F := Ideal) S256x2048 .f32 0x00000000#32) (ix2 t h)
      = ∑ k : Fin 1024, A (ix2 t k) * B (ix2 k h) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 t h) ((contrEquiv1 dot_S256x1024_S1024x2048_S256x2048_1_0_0_1_n_n 1024 rfl rfl).symm k) = ix2 t k := funext fun a => Fin.ext (by
    match a with
    | ⟨0, _⟩ => exact lhs_dot_0 _ _
    | ⟨1, _⟩ => exact (lhs_dot_1 _ _).trans hk)
  have er : dot_S256x1024_S1024x2048_S256x2048_1_0_0_1_n_n.rhsIdx (ix2 t h) ((contrEquiv1 dot_S256x1024_S1024x2048_S256x2048_1_0_0_1_n_n 1024 rfl rfl).symm k) = ix2 k h := funext fun a => Fin.ext (by
    match a with
    | ⟨0, _⟩ => exact (rhs_dot_0 _ _).trans hk
    | ⟨1, _⟩ => exact rhs_dot_1 _ _)
  rw [el, er]

/-- A [1,1,a] array cast to [a] reads, at i, the operand at (0, 0, i): both have row-major position i. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The left operand of the product at (t, k): the x block at (0, t, k) — the cast drops the unit axis, and the change
    of float format is the identity on ideal values. -/
theorem lhs_ix (x0 : Vec Ideal S1x256x1024 .f32) (hc : S1x256x1024.ShapeCasts S256x1024)
    (hb : FTy.bits .bf16 < FTy.bits .f32) (t : Fin 256) (k : Fin 1024) :
    (truncf .bf16 (shapeCast S256x1024 x0 hc) hb : FVec Ideal S256x1024 .bf16) (ix2 t k) = x0 (ix3 0 t k) :=
  shapeCast_1ab_ab_apply x0 hc t k

/-- The right operand of the product at (k, h): the W block at (0, k, h). -/
theorem rhs_ix (x1 : Vec Ideal S1x1024x2048 .f32) (hc : S1x1024x2048.ShapeCasts S1024x2048)
    (hb : FTy.bits .bf16 < FTy.bits .f32) (k : Fin 1024) (h : Fin 2048) :
    (truncf .bf16 (shapeCast S1024x2048 x1 hc) hb : FVec Ideal S1024x2048 .bf16) (ix2 k h) = x1 (ix3 0 k h) :=
  shapeCast_1ab_ab_apply x1 hc k h

/-- The bias summand at (t, h): the bias block at (0, 0, h), whatever the row t — the block is flattened to [2048],
    given a unit row axis, and that one row is broadcast over the 256 rows. -/
theorem bias_ix (x2 : Vec Ideal S1x1x2048 .f32) (hc1 : S1x1x2048.ShapeCasts S2048) (hc2 : S2048.ShapeCasts S1x2048)
    (hbr : S1x2048.Broadcasts S256x2048) (t : Fin 256) (h : Fin 2048) :
    broadcastTo S256x2048 (shapeCast S1x2048 (shapeCast S2048 x2 hc1) hc2) hbr (ix2 t h) = x2 (ix3 0 0 h) :=
  (broadcastTo_1b_ab_apply _ hbr t h).trans
    ((shapeCast_a_1a_apply _ hc2 (0 : Fin 1) h).trans (shapeCast_11a_a_apply x2 hc1 h))

/-- The whole stored expression over variable blocks, read at (0, t, h). -/
theorem value_ix (x0 : Vec Ideal S1x256x1024 .f32) (x1 : Vec Ideal S1x1024x2048 .f32) (x2 : Vec Ideal S1x1x2048 .f32)
    (hc0 : S1x256x1024.ShapeCasts S256x1024) (hc1 : S1x1024x2048.ShapeCasts S1024x2048)
    (hb : FTy.bits .bf16 < FTy.bits .f32)
    (hc2 : S1x1x2048.ShapeCasts S2048) (hc3 : S2048.ShapeCasts S1x2048) (hbr : S1x2048.Broadcasts S256x2048)
    (hc4 : S256x2048.ShapeCasts S1x256x2048) (t : Fin 256) (h : Fin 2048) :
    shapeCast S1x256x2048
        (addf (matmul dot_S256x1024_S1024x2048_S256x2048_1_0_0_1_n_n none
                (truncf .bf16 (shapeCast S256x1024 x0 hc0) hb : FVec Ideal S256x1024 .bf16)
                (truncf .bf16 (shapeCast S1024x2048 x1 hc1) hb : FVec Ideal S1024x2048 .bf16)
                (constant (F := Ideal) S256x2048 .f32 0x00000000#32))
              (broadcastTo S256x2048 (shapeCast S1x2048 (shapeCast S2048 x2 hc2) hc3) hbr)) hc4 (ix3 0 t h)
      = (∑ k : Fin 1024, x0 (ix3 0 t k) * x1 (ix3 0 k h)) + x2 (ix3 0 0 h) :=
  (shapeCast_ab_1ab_apply _ hc4 (0 : Fin 1) t h).trans <| (addf_apply _ _ (ix2 t h)).trans <| by
    rw [matmul_ix, bias_ix]
    exact congrArg (· + x2 (ix3 0 0 h)) (Finset.sum_congr rfl fun k _ => by rw [lhs_ix, rhs_ix])

/-- The stored value at (0, t, h): the row t of x times the column h of W, plus the bias at h. -/
theorem payload_apply (x0 : Vec Ideal S1x256x1024 .f32) (x1 : Vec Ideal S1x1024x2048 .f32) (x2 : Vec Ideal S1x1x2048 .f32)
    (t : Fin 256) (h : Fin 2048) :
    k0_pay1 (F := Ideal) x0 x1 x2 (ix3 0 t h)
      = (∑ k : Fin 1024, x0 (ix3 0 t k) * x1 (ix3 0 k h)) + x2 (ix3 0 0 h) :=
  value_ix x0 x1 x2 _ _ _ _ _ _ _ t h

end Value

end Cert.KernelIdeal.BodyValue

end
-- ==== Proof.BiasRows.lean ====
/-
  The bias array as the kernel's call finds it.

  The bias argument is a [32, 2048] array: one row of 2048 entries per category. Before the call the host reshapes it to
  [32, 1, 2048], and it is this reshaped array that the call's third window stages, one [1, 1, 2048] block per point.
  A reshape keeps row-major positions, and (q, 0, h) of [32, 1, 2048] and (q, h) of [32, 2048] both sit at
  q * 2048 + h: so row q of the staged array at h is the argument at (q, h). Nothing else before the call writes
  either array.
-/
import proofs.«412331_j5815385718920_3_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.BiasRows

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] (m : (ℓ : Loc nD τ sig) → Buf (Elt F) ℓ)

/-- An [a, b] array cast to [a, 1, b] reads, at (i, u, j), the operand at (i, j): both have row-major position
    i * b + j, the unit coordinate being 0. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- When the call is entered, the [32, 1, 2048] array it stages holds the bias argument, reshaped: the one host operation
    that writes it is that reshape, and nothing before the call writes the argument. -/
theorem V_main_v9_eq (c : Dev nD) :
    (V m c main_v9 : S32x1x2048.Idx → Elt F .f32)
      = shapeCast S32x1x2048 (m ((c : Thread nD τ).loc main_arg3)) shapeCasts_S32x2048_S32x1x2048 := by
  dsimp only [Gen.V]
  simp only [Gen.hostOps0, Gen.hostOps0_1, Gen.hostOps0_2, Gen.hostOps0_3, List.flatten_cons, List.flatten_nil,
    List.append_nil, List.cons_append, List.nil_append]
  after_results
  rfl

/-- Row q of the staged bias array at h is the bias argument at (q, h). -/
theorem bias_row (c : Dev nD) (q : Fin 32) (h : Fin 2048) :
    V m c main_v9 (ix3 q 0 h) = m ((c : Thread nD τ).loc main_arg3) (ix2 q h) :=
  (congrFun (V_main_v9_eq m c) (ix3 q 0 h)).trans (shapeCast_ab_a1b_apply _ _ q 0 h)

end Cert.KernelIdeal.BiasRows

end
-- ==== Proof.KernelValue.lean ====
/-
  The kernel's result array, over the extended reals.

  The call visits the 64 samples in the order of their category ids: at grid point `t` it stages the rows of sample
  `s = sample t`, the weight matrix and the bias row of that sample's category, and writes
  `rows · matrix + bias` into slab `s` of the result. The visiting order is a permutation of the samples, so every slab
  is written, at a point of its own, with the entry the specification names; hence the whole result array is the
  specification `Cert.CategoryLinear.linear` of the argument arrays.
-/
import proofs.«412331_j5815385718920_3_alg».proof.Defs
import proofs.«412331_j5815385718920_3_alg».proof.Proof.Gen.KernelIdeal.Frame
import proofs.«412331_j5815385718920_3_alg».proof.Proof.Gen.Pre_finite_inputs
import proofs.«412331_j5815385718920_3_alg».proof.Proof.CategoryLinear
import proofs.«412331_j5815385718920_3_alg».proof.Proof.CategoryRange
import proofs.«412331_j5815385718920_3_alg».proof.Proof.SortedOrder
import proofs.«412331_j5815385718920_3_alg».proof.Proof.SortedTables
import proofs.«412331_j5815385718920_3_alg».proof.Proof.BlockIndex
import proofs.«412331_j5815385718920_3_alg».proof.Proof.BodyValue
import proofs.«412331_j5815385718920_3_alg».proof.Proof.BiasRows
import Idealize.ShloMosaic.Lib.Pipeline.Value

set_option maxRecDepth 16384

noncomputable section

namespace Cert.KernelIdeal.KernelValue

open Cert.KernelIdeal Cert.KernelIdeal.Gen Cert.KernelIdeal.Tables Cert.KernelIdeal.BlockIndex
open Idealize.ShloMosaic Idealize.ShloMosaic.TcCoe Idealize.SL.Sem Idealize.ShloMosaic.ValueIdx
open Idealize.ShloMosaic.Pipeline (Dat)

variable [Cert.Pre_finite_inputs.Facts]
variable (m : (ℓ : Loc nD τ sig) → Buf (Elt Ideal) ℓ) (ρ : Dev nD → PrngReg)

/-! ## The precondition: every category id is in range -/

theorem cat_lt (h : Cert.Pre_KernelIdeal m) : ∀ s : Fin 64, (cats m (ix1 s)).toNat < 32 :=
  Cert.CategoryRange.cat_lt_of_pre _ _ _ _ (h 0)

/-- The tables the call reads keep every block inside its array. -/
theorem ok_of_pre (h : Cert.Pre_KernelIdeal m) : Ok m := ok_of_cat m (cat_lt m h)

/-! ## Where each window is at a grid point -/

section Point

variable (hO : Ok m)

/-- Grid point `t` as a position of the sorted sequence. -/
def pos (t : Fin (cfgM m hO).N) : Fin 64 := ⟨t.val, t.isLt⟩

/-- The sample visited at point `t`, and its category. -/
def smp (t : Fin (cfgM m hO).N) : Fin 64 := sample m (pos m hO t)
def ctg (t : Fin (cfgM m hO).N) : Fin 32 := Cert.CategoryLinear.category (cats m) (smp m hO t)

theorem coords_pos (t : Fin (cfgM m hO).N) :
    (Shape.Idx.ofFin ((grid0.coords t) 0) : S64.Idx) = Shape.Idx.ofFin (pos m hO t) :=
  congrArg Shape.Idx.ofFin (Fin.ext (coords_val t))

/-- The blocks the body loads at point `t`, at their literal shapes. -/
abbrev xblk (c : Dev nD) (t : Fin (cfgM m hO).N) : Vec Ideal S1x256x1024 .f32 := iblk m hO c 0 t
abbrev wblk (c : Dev nD) (t : Fin (cfgM m hO).N) : Vec Ideal S1x1024x2048 .f32 := iblk m hO c 1 t
abbrev bblk (c : Dev nD) (t : Fin (cfgM m hO).N) : Vec Ideal S1x1x2048 .f32 := iblk m hO c 2 t

/-- The specification at the argument arrays of device `c`. -/
abbrev result (c : Dev nD) : FVec Ideal S64x256x2048 .f32 :=
  Cert.CategoryLinear.linear (m ((c : Thread nD τ).loc main_arg0)) (m ((c : Thread nD τ).loc main_arg1))
    (m ((c : Thread nD τ).loc main_arg2)) (m ((c : Thread nD τ).loc main_arg3))

/-- There is one device, so its ids are the ids. -/
theorem cats_eq (c : Dev nD) : m ((c : Thread nD τ).loc main_arg1) = cats m := by
  obtain rfl : c = 0 := Subsingleton.elim _ _
  rfl

variable (hcat : ∀ s : Fin 64, (cats m (ix1 s)).toNat < 32)
include hcat

/-- The first table's word at point `t` is the sample's number. -/
theorem word0 (t : Fin (cfgM m hO).N) :
    (tbl m 0 (Shape.Idx.ofFin ((grid0.coords t) 0))).toNat = (smp m hO t).val := by
  rw [coords_pos m hO t, tbl0_apply m hcat]
  exact Cert.SortedOrder.toNat_ofNat_fin _

/-- The second table's word at point `t` is the sample's category. -/
theorem word1 (t : Fin (cfgM m hO).N) :
    (tbl m 1 (Shape.Idx.ofFin ((grid0.coords t) 0))).toNat = (ctg m hO t).val := by
  rw [coords_pos m hO t, tbl1_apply m hcat, Cert.SortedOrder.ofFin_eq_ix1]
  exact (Cert.CategoryLinear.category_val _ _ (hcat _)).symm

theorem idx0 (t : Fin (cfgM m hO).N) : ((cfgM m hO).win 0).index t = ![(smp m hO t).val, 0, 0] :=
  (index0_eq (adm m hO) t).trans ((transform0_eq (tbl m) (grid0.coords t)).trans
    (congrArg (fun n : Nat => ![n, 0, 0]) (word0 m hO hcat t)))
theorem idx1 (t : Fin (cfgM m hO).N) : ((cfgM m hO).win 1).index t = ![(ctg m hO t).val, 0, 0] :=
  (index1_eq (adm m hO) t).trans ((transform1_eq (tbl m) (grid0.coords t)).trans
    (congrArg (fun n : Nat => ![n, 0, 0]) (word1 m hO hcat t)))
theorem idx2 (t : Fin (cfgM m hO).N) : ((cfgM m hO).win 2).index t = ![(ctg m hO t).val, 0, 0] :=
  (index2_eq (adm m hO) t).trans ((transform2_eq (tbl m) (grid0.coords t)).trans
    (congrArg (fun n : Nat => ![n, 0, 0]) (word1 m hO hcat t)))
theorem idx3 (t : Fin (cfgM m hO).N) : ((cfgM m hO).win 3).index t = ![(smp m hO t).val, 0, 0] :=
  (index3_eq (adm m hO) t).trans ((transform3_eq (tbl m) (grid0.coords t)).trans
    (congrArg (fun n : Nat => ![n, 0, 0]) (word0 m hO hcat t)))

/-! ## The three staged blocks -/

/-- The rows block is the sample's rows. -/
theorem xblk_apply (c : Dev nD) (t : Fin (cfgM m hO).N) (r : Fin 256) (k : Fin 1024) :
    xblk m hO c t (ix3 0 r k) = m ((c : Thread nD τ).loc main_arg0) (ix3 (smp m hO t) r k) :=
  (read0 (adm m hO) t (V m c main_arg0) (ix3 0 r k) (smp m hO t) (idx0 m hO hcat t)).trans
    (congrFun (V_main_arg0 m c) _)

/-- The weights block is the matrix of the sample's category. -/
theorem wblk_apply (c : Dev nD) (t : Fin (cfgM m hO).N) (k : Fin 1024) (h : Fin 2048) :
    wblk m hO c t (ix3 0 k h) = m ((c : Thread nD τ).loc main_arg2) (ix3 (ctg m hO t) k h) :=
  (read1 (adm m hO) t (V m c main_arg2) (ix3 0 k h) (ctg m hO t) (idx1 m hO hcat t)).trans
    (congrFun (V_main_arg2 m c) _)

/-- The bias block is the bias row of the sample's category. -/
theorem bblk_apply (c : Dev nD) (t : Fin (cfgM m hO).N) (h : Fin 2048) :
    bblk m hO c t (ix3 0 0 h) = m ((c : Thread nD τ).loc main_arg3) (ix2 (ctg m hO t) h) :=
  (read2 (adm m hO) t (V m c main_v9) (ix3 0 0 h) (ctg m hO t) (idx2 m hO hcat t)).trans
    (Cert.KernelIdeal.BiasRows.bias_row m c (ctg m hO t) h)

/-! ## What a point writes back -/

/-- The body's payload of the three blocks at point `t` is the specification read through the point's block. -/
theorem payload_eq (c : Dev nD) (t : Fin (cfgM m hO).N) (j : S1x256x2048.Idx) :
    k0_pay1 (F := Ideal) (xblk m hO c t) (wblk m hO c t) (bblk m hO c t) j
      = (((cfgM m hO).win 3).blk t).view.read (Elt Ideal) (result m c) j := by
  obtain ⟨z, r, h, rfl⟩ : ∃ (z : Fin 1) (r : Fin 256) (h : Fin 2048), j = ix3 z r h := ⟨j 0, j 1, j 2, eq_ix3 j⟩
  obtain rfl : z = 0 := Subsingleton.elim _ _
  refine (Cert.KernelIdeal.BodyValue.payload_apply (xblk m hO c t) (wblk m hO c t) (bblk m hO c t) r h).trans ?_
  refine Eq.trans ?_ (read3 (adm m hO) t (result m c) (ix3 0 r h) (smp m hO t) (idx3 m hO hcat t)).symm
  show _ = Cert.CategoryLinear.entry _ _ _ _ (smp m hO t) r h
  unfold Cert.CategoryLinear.entry
  rw [cats_eq m c, bblk_apply m hO hcat c t h]
  refine congrArg (· + _) (Finset.sum_congr rfl fun k _ => ?_)
  rw [xblk_apply m hO hcat c t r k, wblk_apply m hO hcat c t k h]
  rfl

/-- WHAT POINT `t` WRITES BACK is block `t` of the specification. -/
theorem flushed_eq (c : Dev nD) (t : Fin (cfgM m hO).N) :
    (dats m hO 0 c).flushed 3 t = (((cfgM m hO).win 3).blk t).view.read (Elt Ideal) (result m c) := by
  show ((cfgM m hO).win 3).cut (grid0.coords t) ((dats m hO 0 c).after 3 t) = _
  rw [after0_3]
  exact (Cert.KernelIdeal.BodyValue.out_eq_payload c (grid0.coords t) (ms0_0 m hO t) (hs0_0 m hO t) (ms0_1 m hO t) (hs0_1 m hO t)
    (ms0_2 m hO t) (hs0_2 m hO t) (ms0_3 m hO t) (hs0_3 m hO t) (xblk m hO c t) (wblk m hO c t) (bblk m hO c t) (tbl m 0) (tbl m 1)).trans
    (funext (payload_eq m hO hcat c t))

/-! ## Every slab is written -/

/-- Consecutive points visit different samples, so the result's block is written back at every point. -/
theorem flush3 (t : Fin (cfgM m hO).N) : ((cfgM m hO).win 3).flush t = true := by
  refine flush3_of (adm m hO) t fun hlt he => ?_
  rw [idx3 m hO hcat, idx3 m hO hcat] at he
  have hv : (smp m hO ⟨t.val + 1, hlt⟩).val = (smp m hO t).val := congrFun he (0 : Fin 3)
  have hp : pos m hO ⟨t.val + 1, hlt⟩ = pos m hO t := sample_injective m (Fin.ext hv)
  have : t.val + 1 = t.val := congrArg Fin.val hp
  omega

/-- Every index of the result lies in the block of the point that visits its sample. -/
theorem cover (i : S64x256x2048.Idx) :
    ∃ t : Fin (cfgM m hO).N, ((cfgM m hO).win 3).flush t = true ∧ i ∈ (((cfgM m hO).win 3).blk t).view.set := by
  obtain ⟨s, hs⟩ := sample_surjective m (i 0)
  refine ⟨⟨s.val, s.isLt⟩, flush3 m hO hcat _, ?_⟩
  rw [mem_blk3 (adm m hO) _ i _ (idx3 m hO hcat _)]
  show (i 0).val = (sample m ⟨s.val, _⟩).val
  rw [← hs]

/-- THE RESULT ARRAY after the call is the specification. -/
theorem final (c : Dev nD) : (dats m hO 0 c).arrAt 3 (cfgM m hO).N = result m c :=
  (dats m hO 0 c).arrAt_eq_of_cover 3 (result m c) (fun t _ => flushed_eq m hO hcat c t) (cover m hO hcat)

end Point

/-! ## The run -/

/-- Under the precondition every weakly fair execution of the kernel's program ends with the specification in the
    result array and the four argument arrays unchanged. -/
theorem run (h : Cert.Pre_KernelIdeal m) :
    θ_run defs (onTc (τ := τ) (main (F := Ideal))) ⟨m, fun _ => 0, ρ⟩ fun r => ∀ c : Dev nD,
      r.2.mem ((c.tc : Thread nD τ).loc main_v10)
          = Cert.CategoryLinear.linear (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hcat := cat_lt m h
  have hO := ok_of_pre m h
  refine (θ_run defs _ _).mono (fun r hq c => ?_) (run_main m ρ hO)
  exact ⟨((hq c).1 3).trans (final m hO hcat c),
    ((hq c).1 0).trans (((dats m hO 0 c).arrAt_in 0 rfl _).trans ((A_eq m hO c 0).trans (V_main_arg0 m c))),
    ((hq c).2 main_arg1 (by decide : main_arg1 ∈ Pipeline.restRefs sig spec0)).trans (V_main_arg1 m c),
    ((hq c).1 1).trans (((dats m hO 0 c).arrAt_in 1 rfl _).trans ((A_eq m hO c 1).trans (V_main_arg2 m c))),
    ((hq c).2 main_arg3 (by decide : main_arg3 ∈ Pipeline.restRefs sig spec0)).trans (V_main_arg3 m c)⟩

end Cert.KernelIdeal.KernelValue

end
-- ==== Proof.SortedTablesBits.lean ====
/-
  The kernel's two tables and its index maps.

  Before the grid runs, the program clips the 64 category ids into `[0, 31]`, sorts the samples by clipped id (stably,
  ascending in the signed order) and keeps two tables of 64 words: the first holds, at position `i`, the number of
  the sample the sort puts there; the second holds that sample's clipped id. Under the hypothesis that every id is
  below 32 the clip does nothing, so the first table is the sorting permutation `sample` of the ids themselves and the
  second is the ids read through it.

  Every index map of the grid reads one word of one table at the grid coordinate and returns it as the leading block
  index, the other two being zero. These closed forms are proved at arbitrary table contents; the side condition of
  the pipeline — every block so indexed lies inside its array — then follows from the two tables' words being a
  sample number (below 64) and a category id (below 32).
-/
import proofs.«412331_j5815385718920_3_alg».proof.Proof.Gen.Kernel.Frame
import proofs.«412331_j5815385718920_3_alg».proof.Proof.SortedOrder
import Idealize.ShloMosaic.Lib.StableHlo.Run

set_option maxRecDepth 16384

noncomputable section

namespace Cert.Kernel.Tables

open Cert.Kernel Cert.Kernel.Gen Idealize.ShloMosaic Idealize.ShloMosaic.TcCoe Idealize.SL.Sem
  Idealize.ShloMosaic.StableHlo Idealize.ShloMosaic.ValueIdx

variable {F : FTy → Type} [FloatOps F] (m : (ℓ : Loc nD τ sig) → Buf (Elt F) ℓ)

/-! ## The index maps in closed form, at any contents of the tables -/

/-- The one index of a unit rectangle at offset `k` of a vector of 64 is position `k`. -/
theorem unit_emb (k : Fin 64) (off : Fin 1 → Nat) (hoff : off 0 = k.val)
    (inb : ∀ a, off a + S1.size a ≤ S64.size a) (h1 : 0 < S1.numel) :
    (Rect.unit (s := S64) off S1.size inb).emb (Shape.Idx.first h1) = Shape.Idx.ofFin k := by
  funext a
  match a with
  | ⟨0, _⟩ =>
    refine Fin.ext ?_
    show off 0 + 1 * 0 = k.val
    omega

/-- A grid coordinate, as a 32-bit word cast to an index, reads back as itself. -/
theorem coord_word (i : grid0.Coords) :
    (![(Scalar.indexCast (BitVec.ofNat 32 (i 0).val)).toNat] : Fin 1 → Nat) 0 = (i 0).val := by
  have hlt : (i 0).val < 64 := (i 0).isLt
  show (BitVec.ofNat 32 (i 0).val).toNat = (i 0).val
  simp only [BitVec.toNat_ofNat]
  omega

/-- The index map of the window of samples' rows: block `(first table at the grid coordinate, 0, 0)`. -/
theorem transform0_eq (pf : pre0.Contents (Elt F)) (i : grid0.Coords) :
    cc0_transform_0 k0_off1_inb numel1_S1 pf i = ![(pf 0 (Shape.Idx.ofFin (i 0))).toNat, 0, 0] :=
  congrArg (fun w : BitVec 32 => (![w.toNat, 0, 0] : Fin 3 → Nat))
    (congrArg (pf 0) (unit_emb (i 0) _ (coord_word i) _ _))

/-- The index map of the window of weight matrices: block `(second table at the grid coordinate, 0, 0)`. -/
theorem transform1_eq (pf : pre0.Contents (Elt F)) (i : grid0.Coords) :
    cc0_transform_1 k0_off1_inb numel1_S1 pf i = ![(pf 1 (Shape.Idx.ofFin (i 0))).toNat, 0, 0] :=
  congrArg (fun w : BitVec 32 => (![w.toNat, 0, 0] : Fin 3 → Nat))
    (congrArg (pf 1) (unit_emb (i 0) _ (coord_word i) _ _))

/-- The index map of the window of bias rows: block `(second table at the grid coordinate, 0, 0)`. -/
theorem transform2_eq (pf : pre0.Contents (Elt F)) (i : grid0.Coords) :
    cc0_transform_2 k0_off1_inb numel1_S1 pf i = ![(pf 1 (Shape.Idx.ofFin (i 0))).toNat, 0, 0] :=
  congrArg (fun w : BitVec 32 => (![w.toNat, 0, 0] : Fin 3 → Nat))
    (congrArg (pf 1) (unit_emb (i 0) _ (coord_word i) _ _))

/-- The index map of the result's window: block `(first table at the grid coordinate, 0, 0)`. -/
theorem transform3_eq (pf : pre0.Contents (Elt F)) (i : grid0.Coords) :
    cc0_transform_3 k0_off1_inb numel1_S1 pf i = ![(pf 0 (Shape.Idx.ofFin (i 0))).toNat, 0, 0] :=
  congrArg (fun w : BitVec 32 => (![w.toNat, 0, 0] : Fin 3 → Nat))
    (congrArg (pf 0) (unit_emb (i 0) _ (coord_word i) _ _))

/-! ## The two tables as the program computes them -/

/-- The category ids the launch memory holds. -/
abbrev cats : IVec S64 32 := m (((0 : Dev nD) : Thread nD τ).loc main_arg1)

/-- The ids clipped into `[0, 31]`, as the program writes the clip. -/
abbrev clipped (cat : IVec S64 32) : IVec S64 32 :=
  minsi (broadcastInDim S64 ![] bcast_S_S64 (id (constantI S_ 32 31#32)))
    (maxsi (broadcastInDim S64 ![] bcast_S_S64 (id (constantI S_ 32 0#32))) cat)

/-- The sorting permutation of the clipped ids, as the program writes the argsort. -/
abbrev sortedPerm (key : IVec S64 32) : IVec S64 32 :=
  (Host.sort2 S64 0 comparator_i32_i32_d0 key (iotaInDim S64 32 0)).2

/-- The keys read through a table of positions, as the program writes the read. -/
abbrev takeThrough (key perm : IVec S64 32) : IVec S64 32 :=
  Host.gather gather_S64_S64x1_S64_n_0_n_n_0_1_1 key (broadcastInDim S64x1 ![0] bcast_S64_S64x1_0
    (select (cmpi .slt perm (broadcastInDim S64 ![] bcast_S_S64 (constantI S_ 32 0#32)))
      (addi perm (broadcastInDim S64 ![] bcast_S_S64 (constantI S_ 32 64#32))) perm))

/-- The first table is the sorting permutation of the clipped ids. -/
theorem tbl0_eq : tbl m 0 = sortedPerm (clipped (cats m)) := by
  show V m 0 main_v1 = _
  dsimp only [Gen.V]
  simp only [Gen.hostOps0, Gen.hostOps0_1, Gen.hostOps0_2, Gen.hostOps0_3, List.flatten_cons, List.flatten_nil,
    List.append_nil, List.cons_append, List.nil_append]
  after_results
  rfl

set_option maxHeartbeats 400000 in
/-- The second table is the clipped ids read through the first. -/
theorem tbl1_eq : tbl m 1 = takeThrough (clipped (cats m)) (sortedPerm (clipped (cats m))) := by
  show V m 0 main_v8 = _
  dsimp only [Gen.V]
  simp only [Gen.hostOps0, Gen.hostOps0_1, Gen.hostOps0_2, Gen.hostOps0_3, List.flatten_cons, List.flatten_nil,
    List.append_nil, List.cons_append, List.nil_append]
  after_results_simp
  rfl

/-! ## The two tables under the hypothesis on the ids -/

/-- The sample handled at grid point `i`: the one a stable ascending sort by category id puts at position `i`. -/
def sample (i : Fin 64) : Fin 64 := Cert.SortedOrder.order (cats m) i

theorem sample_injective : Function.Injective (sample m) := Cert.SortedOrder.order_injective (cats m)

theorem sample_surjective : Function.Surjective (sample m) := Cert.SortedOrder.order_surjective (cats m)

/-- Ids in range are their own clip. -/
theorem clipped_eq (hcat : ∀ s : Fin 64, (cats m (ix1 s)).toNat < 32) : clipped (cats m) = cats m :=
  Cert.SortedOrder.clip_eq bcast_S_S64 (cats m) hcat

/-- The first table at position `i` is the number of the sample sorted to `i`, as a word. -/
theorem tbl0_apply (hcat : ∀ s : Fin 64, (cats m (ix1 s)).toNat < 32) (i : Fin 64) :
    tbl m 0 (Shape.Idx.ofFin i) = BitVec.ofNat 32 (sample m i).val := by
  rw [tbl0_eq m, clipped_eq m hcat]
  exact Cert.SortedOrder.argsort_apply comparator_i32_i32_d0 (fun _ _ => rfl) (cats m) i

/-- The second table at position `i` is the category id of the sample sorted to `i`. -/
theorem tbl1_apply (hcat : ∀ s : Fin 64, (cats m (ix1 s)).toNat < 32) (i : Fin 64) :
    tbl m 1 (Shape.Idx.ofFin i) = cats m (Shape.Idx.ofFin (sample m i)) := by
  rw [tbl1_eq m, clipped_eq m hcat]
  exact Cert.SortedOrder.take_apply gather_S64_S64x1_S64_n_0_n_n_0_1_1 rfl rfl rfl rfl bcast_S_S64 bcast_S64_S64x1_0
    (cats m) (sortedPerm (cats m)) (Cert.SortedOrder.order (cats m))
    (fun k => Cert.SortedOrder.argsort_apply comparator_i32_i32_d0 (fun _ _ => rfl) (cats m) k) i

/-! ## The pipeline's side condition -/

/-- The pipeline's side condition at ANY contents whose words are in range: a word of the first table names one of the
    64 samples, a word of the second one of the 32 categories, so every block indexed by one lies inside its array. -/
theorem ok0_of_words (pf : pre0.Contents (Elt F))
    (h0 : ∀ i : grid0.Coords, (pf 0 (Shape.Idx.ofFin (i 0))).toNat < 64)
    (h1 : ∀ i : grid0.Coords, (pf 1 (Shape.Idx.ofFin (i 0))).toNat < 32) : ok0 pf := by
  unfold ok0
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · rw [transform0_eq pf i]
    have hw := h0 i
    generalize (pf 0 (Shape.Idx.ofFin (i 0))).toNat = w at hw ⊢
    match a with
    | ⟨0, _⟩ => show (w + 1) * 1 ≤ 64; omega
    | ⟨1, _⟩ => show (0 + 1) * 256 ≤ 256; omega
    | ⟨2, _⟩ => show (0 + 1) * 1024 ≤ 1024; omega
  · rw [transform1_eq pf i]
    have hw := h1 i
    generalize (pf 1 (Shape.Idx.ofFin (i 0))).toNat = w at hw ⊢
    match a with
    | ⟨0, _⟩ => show (w + 1) * 1 ≤ 32; omega
    | ⟨1, _⟩ => show (0 + 1) * 1024 ≤ 1024; omega
    | ⟨2, _⟩ => show (0 + 1) * 2048 ≤ 2048; omega
  · rw [transform2_eq pf i]
    have hw := h1 i
    generalize (pf 1 (Shape.Idx.ofFin (i 0))).toNat = w at hw ⊢
    match a with
    | ⟨0, _⟩ => show (w + 1) * 1 ≤ 32; omega
    | ⟨1, _⟩ => show (0 + 1) * 1 ≤ 1; omega
    | ⟨2, _⟩ => show (0 + 1) * 2048 ≤ 2048; omega
  · rw [transform3_eq pf i]
    have hw := h0 i
    generalize (pf 0 (Shape.Idx.ofFin (i 0))).toNat = w at hw ⊢
    match a with
    | ⟨0, _⟩ => show (w + 1) * 1 ≤ 64; omega
    | ⟨1, _⟩ => show (0 + 1) * 256 ≤ 256; omega
    | ⟨2, _⟩ => show (0 + 1) * 2048 ≤ 2048; omega

/-- A word of the first table names a sample. -/
theorem word0_lt (hcat : ∀ s : Fin 64, (cats m (ix1 s)).toNat < 32) (i : grid0.Coords) :
    (tbl m 0 (Shape.Idx.ofFin (i 0))).toNat < 64 :=
  lt_of_eq_of_lt
    ((congrArg BitVec.toNat (tbl0_apply m hcat (i 0))).trans (Cert.SortedOrder.toNat_ofNat_fin (sample m (i 0))))
    (sample m (i 0)).isLt

/-- A word of the second table is the category id of a sample, so it names a category. -/
theorem word1_lt (hcat : ∀ s : Fin 64, (cats m (ix1 s)).toNat < 32) (i : grid0.Coords) :
    (tbl m 1 (Shape.Idx.ofFin (i 0))).toNat < 32 :=
  lt_of_eq_of_lt
    ((congrArg BitVec.toNat (tbl1_apply m hcat (i 0))).trans
      (congrArg (fun j => (cats m j).toNat) (Cert.SortedOrder.ofFin_eq_ix1 (sample m (i 0)))))
    (hcat (sample m (i 0)))

/-- With every category id below 32, the tables the program computes satisfy the pipeline's side condition. -/
theorem ok_of_cat (hcat : ∀ s : Fin 64, (cats m (ix1 s)).toNat < 32) : Ok m :=
  ok0_of_words (tbl m) (word0_lt m hcat) (word1_lt m hcat)

/-- The permutation, spelled out. -/
theorem sample_eq_order (i : Fin 64) : sample m i = Cert.SortedOrder.order (cats m) i := rfl

-- from here on the permutation is known only through the facts above
attribute [irreducible] sample

end Cert.Kernel.Tables

end
-- ==== Proof.KernelFrameBits.lean ====
/-
  The word-level program's tables are in range under the precondition.

  The program as printed at the word level keeps two tables of 64 words, a sample number and a category id per grid
  point, and every index map of its grid reads one of them as a leading block index. Each block so indexed lies inside
  its array as soon as every category id is below 32; the precondition says that every id is in `[0, 32)`.
-/
import proofs.«412331_j5815385718920_3_alg».proof.Defs
import proofs.«412331_j5815385718920_3_alg».proof.Proof.Gen.Kernel.Frame
import proofs.«412331_j5815385718920_3_alg».proof.Proof.Gen.Pre_finite_inputs
import proofs.«412331_j5815385718920_3_alg».proof.Proof.CategoryRange
import proofs.«412331_j5815385718920_3_alg».proof.Proof.SortedTablesBits

set_option maxRecDepth 16384

noncomputable section

namespace Cert.Kernel.FrameBits

open Cert.Kernel Cert.Kernel.Gen
open Idealize.ShloMosaic Idealize.ShloMosaic.TcCoe Idealize.SL.Sem

variable [Cert.Pre_finite_inputs.Facts]
variable (m : (ℓ : Loc nD τ sig) → Buf (Elt Bits) ℓ)

/-- Under the precondition the pipeline's side condition of the two tables holds. -/
theorem ok_of_pre (h : Cert.Pre_Kernel m) : Ok m :=
  Cert.Kernel.Tables.ok_of_cat m (Cert.CategoryRange.cat_lt_of_pre _ _ _ _ (h 0))

end Cert.Kernel.FrameBits

end
-- ==== Proof.ReferenceValue.lean ====
/-
  The reference is the specification.

  The reference gathers, for every sample `b`, the weight matrix and the bias row of the sample's category, and then
  takes one batched product and adds the bias. A gather reads its table at the row its start index names, the index
  read signed and clamped into the table's 32 rows; the start index of sample `b` is the category id with 32 added
  when the id is negative. Under the hypothesis that every id is below 32 as a natural number the id is nonnegative
  when read signed, so the start index is the id itself, its signed value is its natural value, and the clamp leaves
  it: the row read is the sample's category. What remains is the sum over the contracted axis plus the bias entry,
  which is the specification's entry.
-/
import proofs.«412331_j5815385718920_3_alg».proof.Proof.Gen.ReferenceIdeal.Read
import proofs.«412331_j5815385718920_3_alg».proof.Proof.CategoryLinear
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

/-! ## A gather read at an index -/

/-- A start index read signed and clamped into the 32 rows of a table. -/
def clampRow {w : Nat} (v : BitVec w) : Fin 32 := ⟨min v.toInt.toNat 31, by omega⟩

/-- The dimension numbers of the gather of weight matrices: row axis collapsed, the two matrix axes kept. -/
abbrev weightGather : GatherDims S32x1024x2048 S64x1 S64x1024x2048 :=
  gather_S32x1024x2048_S64x1_S64x1024x2048_12_0_n_n_0_1_110242048

/-- The dimension numbers of the gather of bias rows: row axis collapsed, the one row axis kept. -/
abbrev biasGather : GatherDims S32x2048 S64x1 S64x2048 :=
  gather_S32x2048_S64x1_S64x2048_1_0_n_n_0_1_12048

/-- The start-indices index both gathers read for result row `b`: entry `(b, 0)` of the column of start indices. -/
theorem weightGather_siIdx (b : Fin 64) (k : Fin 1024) (h : Fin 2048) :
    weightGather.siIdx (ix3 b k h) ⟨List.idxOf (0 : Fin 3) weightGather.startIndexMap,
      List.idxOf_lt_length_iff.2 (List.mem_singleton.mpr rfl)⟩ = ix2 b (0 : Fin 1) := by
  funext c
  refine Fin.ext ?_
  match c with
  | ⟨0, _⟩ => rfl
  | ⟨1, _⟩ => rfl

theorem biasGather_siIdx (b : Fin 64) (h : Fin 2048) :
    biasGather.siIdx (ix2 b h) ⟨List.idxOf (0 : Fin 2) biasGather.startIndexMap,
      List.idxOf_lt_length_iff.2 (List.mem_singleton.mpr rfl)⟩ = ix2 b (0 : Fin 1) := by
  funext c
  refine Fin.ext ?_
  match c with
  | ⟨0, _⟩ => rfl
  | ⟨1, _⟩ => rfl

/-- The gather of matrices at `(b, k, h)`: the table at row `idx[b, 0]`, read signed and clamped, and at `(k, h)`
    within the row. -/
theorem weightGather_apply {α : Type} {w : Nat} (x : S32x1024x2048.Idx → α) (idx : IVec S64x1 w)
    (b : Fin 64) (k : Fin 1024) (h : Fin 2048) :
    Host.gather weightGather x idx (ix3 b k h) = x (ix3 (clampRow (idx (ix2 b (0 : Fin 1)))) k h) := by
  unfold Host.gather
  congr 1
  funext a
  refine Fin.ext ?_
  match a with
  | ⟨0, _⟩ =>
    -- the row axis: collapsed and start-indexed, so the coordinate is the clamped start alone
    have h1 : weightGather.batchCoord (ix3 b k h) 0 = 0 := rfl
    have h2 : weightGather.offCoord (ix3 b k h) 0 = 0 := rfl
    have h3 : weightGather.start (ix3 b k h) idx 0 = min (idx (ix2 b (0 : Fin 1))).toInt.toNat 31 := by
      unfold GatherDims.start
      rw [dif_pos (show (0 : Fin 3) ∈ weightGather.startIndexMap from List.mem_singleton.mpr rfl),
        weightGather_siIdx]
      rfl
    show weightGather.start (ix3 b k h) idx 0 + weightGather.batchCoord (ix3 b k h) 0
      + weightGather.offCoord (ix3 b k h) 0 = _
    rw [h1, h2, h3]
    rfl
  | ⟨1, _⟩ =>
    -- an offset axis: no start, the coordinate is the result's own
    have h1 : weightGather.batchCoord (ix3 b k h) 1 = 0 := rfl
    have h2 : weightGather.offCoord (ix3 b k h) 1 = k.val := rfl
    have h3 : weightGather.start (ix3 b k h) idx 1 = 0 := rfl
    show weightGather.start (ix3 b k h) idx 1 + weightGather.batchCoord (ix3 b k h) 1
      + weightGather.offCoord (ix3 b k h) 1 = k.val
    rw [h1, h2, h3, Nat.add_zero, Nat.zero_add]
  | ⟨2, _⟩ =>
    have h1 : weightGather.batchCoord (ix3 b k h) 2 = 0 := rfl
    have h2 : weightGather.offCoord (ix3 b k h) 2 = h.val := rfl
    have h3 : weightGather.start (ix3 b k h) idx 2 = 0 := rfl
    show weightGather.start (ix3 b k h) idx 2 + weightGather.batchCoord (ix3 b k h) 2
      + weightGather.offCoord (ix3 b k h) 2 = h.val
    rw [h1, h2, h3, Nat.add_zero, Nat.zero_add]

/-- The gather of bias rows at `(b, h)`: the table at row `idx[b, 0]`, read signed and clamped, and at `h` within
    the row. -/
theorem biasGather_apply {α : Type} {w : Nat} (x : S32x2048.Idx → α) (idx : IVec S64x1 w)
    (b : Fin 64) (h : Fin 2048) :
    Host.gather biasGather x idx (ix2 b h) = x (ix2 (clampRow (idx (ix2 b (0 : Fin 1)))) h) := by
  unfold Host.gather
  congr 1
  funext a
  refine Fin.ext ?_
  match a with
  | ⟨0, _⟩ =>
    have h1 : biasGather.batchCoord (ix2 b h) 0 = 0 := rfl
    have h2 : biasGather.offCoord (ix2 b h) 0 = 0 := rfl
    have h3 : biasGather.start (ix2 b h) idx 0 = min (idx (ix2 b (0 : Fin 1))).toInt.toNat 31 := by
      unfold GatherDims.start
      rw [dif_pos (show (0 : Fin 2) ∈ biasGather.startIndexMap from List.mem_singleton.mpr rfl),
        biasGather_siIdx]
      rfl
    show biasGather.start (ix2 b h) idx 0 + biasGather.batchCoord (ix2 b h) 0
      + biasGather.offCoord (ix2 b h) 0 = _
    rw [h1, h2, h3]
    rfl
  | ⟨1, _⟩ =>
    have h1 : biasGather.batchCoord (ix2 b h) 1 = 0 := rfl
    have h2 : biasGather.offCoord (ix2 b h) 1 = h.val := rfl
    have h3 : biasGather.start (ix2 b h) idx 1 = 0 := rfl
    show biasGather.start (ix2 b h) idx 1 + biasGather.batchCoord (ix2 b h) 1
      + biasGather.offCoord (ix2 b h) 1 = h.val
    rw [h1, h2, h3, Nat.add_zero, Nat.zero_add]

/-! ## The start index of a sample is its category -/

/-- An id below 32 is not negative when read signed. -/
theorem not_slt_zero (v : BitVec 32) (hv : v.toNat < 32) : IntOp.cmpi .slt v 0#32 = 0#1 := by
  refine eq_zero_of_ne_one fun hc => ?_
  rw [IntOp.cmpi_slt, StableHlo.Predicate.toInt_eq_toNat_of_lt (by omega),
    show (0#32 : BitVec 32).toInt = 0 from by decide] at hc
  omega

/-- The clamp leaves an id below 32: the row read is the sample's category. -/
theorem clampRow_eq_category (x1 : IVec S64 32) (b : Fin 64) (hb : (x1 (ix1 b)).toNat < 32) :
    clampRow (x1 (ix1 b)) = Cert.CategoryLinear.category x1 b := by
  refine Fin.ext ?_
  show min (x1 (ix1 b)).toInt.toNat 31 = min (x1 (ix1 b)).toNat 31
  rw [StableHlo.Predicate.toInt_eq_toNat_of_lt (by omega), Int.toNat_natCast]

/-- The column of start indices of the first gather, at `(b, 0)`: the id itself, since it is not negative. -/
theorem start_v5 (x1 : IVec S64 32) (b : Fin 64) (hb : (x1 (ix1 b)).toNat < 32) :
    Read.val_main_v5 (F := Ideal) x1 (ix2 b (0 : Fin 1)) = x1 (ix1 b) := by
  have e : Read.idx_main_v5 (ix2 b (0 : Fin 1)) = ix1 b := by
    funext a
    match a with
    | ⟨0, _⟩ => rfl
  rw [Read.val_main_v5_apply, e, Read.val_main_v4_apply, Read.val_main_v1_apply, Read.val_main_v0_apply,
    Read.val_main_c_apply, not_slt_zero _ hb, select_zero]

/-- The column of start indices of the second gather, at `(b, 0)`: the same. -/
theorem start_v12 (x1 : IVec S64 32) (b : Fin 64) (hb : (x1 (ix1 b)).toNat < 32) :
    Read.val_main_v12 (F := Ideal) x1 (ix2 b (0 : Fin 1)) = x1 (ix1 b) := by
  have e : Read.idx_main_v12 (ix2 b (0 : Fin 1)) = ix1 b := by
    funext a
    match a with
    | ⟨0, _⟩ => rfl
  rw [Read.val_main_v12_apply, e, Read.val_main_v11_apply, Read.val_main_v8_apply, Read.val_main_v7_apply,
    Read.val_main_c_1_apply, not_slt_zero _ hb, select_zero]

/-- The gathered matrices at `(b, k, h)`: the matrix of sample `b`'s category at `(k, h)`. -/
theorem val_main_v6_apply (x1 : IVec S64 32) (x2 : FVec Ideal S32x1024x2048 .f32) (b : Fin 64) (k : Fin 1024)
    (h : Fin 2048) (hb : (x1 (ix1 b)).toNat < 32) :
    Read.val_main_v6 (F := Ideal) x1 x2 (ix3 b k h) = x2 (ix3 (Cert.CategoryLinear.category x1 b) k h) := by
  show Host.gather weightGather x2 (Read.val_main_v5 (F := Ideal) x1) (ix3 b k h) = _
  rw [weightGather_apply, start_v5 x1 b hb, clampRow_eq_category x1 b hb]

/-- The gathered bias rows at `(b, h)`: the bias row of sample `b`'s category at `h`. -/
theorem val_main_v13_apply (x1 : IVec S64 32) (x3 : FVec Ideal S32x2048 .f32) (b : Fin 64) (h : Fin 2048)
    (hb : (x1 (ix1 b)).toNat < 32) :
    Read.val_main_v13 (F := Ideal) x1 x3 (ix2 b h) = x3 (ix2 (Cert.CategoryLinear.category x1 b) h) := by
  show Host.gather biasGather x3 (Read.val_main_v12 (F := Ideal) x1) (ix2 b h) = _
  rw [biasGather_apply, start_v12 x1 b hb, clampRow_eq_category x1 b hb]

/-! ## The reference's result -/

/-- With every category id below 32, the reference's result is the specification. -/
theorem reference_eq (x0 : FVec Ideal S64x256x1024 .f32) (x1 : IVec S64 32) (x2 : FVec Ideal S32x1024x2048 .f32)
    (x3 : FVec Ideal S32x2048 .f32) (hcat : ∀ s : Fin 64, (x1 (ValueIdx.ix1 s)).toNat < 32) :
    Cert.ReferenceIdeal.Read.val_main_v17 (F := Ideal) x0 x1 x2 x3 = Cert.CategoryLinear.linear x0 x1 x2 x3 := by
  funext j
  obtain ⟨b, t, h, rfl⟩ : ∃ (b : Fin 64) (t : Fin 256) (h : Fin 2048), j = ix3 b t h := ⟨j 0, j 1, j 2, eq_ix3 j⟩
  have el : ∀ k : Fin 1024, Read.lidx_main_v14 (ix3 b t h) k = ix3 b t k := fun k => funext fun a => by
    match a with
    | ⟨0, _⟩ => rfl
    | ⟨1, _⟩ => rfl
    | ⟨2, _⟩ => rfl
  have er : ∀ k : Fin 1024, Read.ridx_main_v14 (ix3 b t h) k = ix3 b k h := fun k => funext fun a => by
    match a with
    | ⟨0, _⟩ => rfl
    | ⟨1, _⟩ => rfl
    | ⟨2, _⟩ => rfl
  have eb : Read.idx_main_v15 (Read.idx_main_v16 (ix3 b t h)) = ix2 b h := funext fun a => by
    match a with
    | ⟨0, _⟩ => rfl
    | ⟨1, _⟩ => rfl
  rw [Cert.CategoryLinear.linear_apply, Read.val_main_v17_apply, Read.val_main_v14_apply, Read.val_main_v16_apply,
    Read.val_main_v15_apply, eb, val_main_v13_apply x1 x3 b h (hcat b)]
  simp only [el, er, val_main_v6_apply x1 x2 b _ h (hcat b)]
  rfl

end Cert.ReferenceIdeal.RefValue

end
-- ==== Proof.lean ====
/-
  The proof of `Cert.Claim`: the five claims of this certificate, each from its pieces.

  Both programs compute, for every sample `b` of the batch with category `cat b`,
      out[b, t, h] = Σ_k x[b, t, k] · W[cat b, k, h] + bias[cat b, h]
  (`Cert.CategoryLinear.linear`). The precondition bounds every category id by `0 ≤ id < 32`.

    * The two kernel frames hold whenever the tables the kernel's index maps read keep every block inside its array;
      under the precondition they do (`ok_of_pre`, once at the word level and once at the extended reals).
    * The reference's frame is its run with the result dropped.
    * The ideal pass rewrote nothing, so there is nothing to preserve.
    * The algebraic claim: the kernel's run ends with its result array at `linear` of its arguments
      (`Cert.KernelIdeal.KernelValue.run`); the reference's run ends with its result at its own composed term of its
      arguments, which agree with the kernel's, and that term is `linear` of them as soon as every id is below 32
      (`Cert.ReferenceIdeal.RefValue.reference_eq`), which the precondition gives (`Cert.CategoryRange.cat_lt_of_pre`).
-/
import proofs.«412331_j5815385718920_3_alg».proof.Defs
import proofs.«412331_j5815385718920_3_alg».proof.Proof.Gen.Kernel
import proofs.«412331_j5815385718920_3_alg».proof.Proof.Gen.Kernel.Skeleton
import proofs.«412331_j5815385718920_3_alg».proof.Proof.Gen.Kernel.Launch
import proofs.«412331_j5815385718920_3_alg».proof.Proof.Gen.Kernel.Points
import proofs.«412331_j5815385718920_3_alg».proof.Proof.Gen.Kernel.Frame
import proofs.«412331_j5815385718920_3_alg».proof.Proof.Gen.KernelIdeal
import proofs.«412331_j5815385718920_3_alg».proof.Proof.Gen.KernelIdeal.Skeleton
import proofs.«412331_j5815385718920_3_alg».proof.Proof.Gen.KernelIdeal.Launch
import proofs.«412331_j5815385718920_3_alg».proof.Proof.Gen.KernelIdeal.Points
import proofs.«412331_j5815385718920_3_alg».proof.Proof.Gen.KernelIdeal.Frame
import proofs.«412331_j5815385718920_3_alg».proof.Proof.Gen.ReferenceIdeal
import proofs.«412331_j5815385718920_3_alg».proof.Proof.Gen.Pre_finite_inputs
import proofs.«412331_j5815385718920_3_alg».proof.Proof.Gen.ReferenceIdeal.Run
import proofs.«412331_j5815385718920_3_alg».proof.Proof.Gen.ReferenceIdeal.Read
import proofs.«412331_j5815385718920_3_alg».proof.Proof.KernelValue
import proofs.«412331_j5815385718920_3_alg».proof.Proof.KernelFrameBits
import proofs.«412331_j5815385718920_3_alg».proof.Proof.ReferenceValue
import proofs.«412331_j5815385718920_3_alg».proof.Proof.CategoryRange
import proofs.«412331_j5815385718920_3_alg».proof.Proof.CategoryLinear
import Idealize.ShloMosaic.Adequacy
import Idealize.ShloMosaic.Init

noncomputable section

namespace Cert.Proof

open Idealize.ShloMosaic Idealize.ShloMosaic.TcCoe Idealize.SL.Sem

/-- The word-level kernel runs and leaves its arguments: its tables are in range under the precondition. -/
theorem frame_k : Cert.frame_Kernel := fun m ρ h =>
  Cert.Kernel.Gen.frame m ρ (Cert.Kernel.FrameBits.ok_of_pre m h)

/-- The same kernel over the extended reals. -/
theorem frame_ki : Cert.frame_KernelIdeal := fun m ρ h =>
  Cert.KernelIdeal.Gen.frame m ρ (Cert.KernelIdeal.KernelValue.ok_of_pre m h)

/-- The reference runs and leaves its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the extended reals. -/
theorem preserves : Cert.preserves_Kernel_KernelIdeal := trivial

/-- Over the extended reals, from memories that agree on the arguments, both programs end with their results at
    `linear` of the kernel's arguments. -/
theorem algebraic : Cert.algebraic_KernelIdeal_ReferenceIdeal := by
  intro m ρ m' ρ' hpre hagree
  refine ⟨fun c => Cert.CategoryLinear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.ReferenceIdeal.RefValue.reference_eq _ _ _ _ (Cert.CategoryRange.cat_lt_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
